-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg14 : FVec F S128 .f32) (main_arg15 : FVec F S128x256 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg15
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  main_v78

def fn_part3 {F : FTy → Type} [FloatOps F] (main_arg11 : FVec F S128 .f32) (main_arg12 : FVec F S128x256 .f32) (main_arg13 : FVec F S128x256 .f32) (main_arg14 : FVec F S128 .f32) (main_arg15 : FVec F S128x256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_v63 main_v67

def fn_part2 {F : FTy → Type} [FloatOps F] (main_arg7 : FVec F S256x128 .f32) (main_arg8 : FVec F S256 .f32) (main_arg9 : FVec F S256x128 .f32) (main_arg10 : FVec F S128x256 .f32) (main_arg11 : FVec F S128 .f32) (main_arg12 : FVec F S128x256 .f32) (main_arg13 : FVec F S128x256 .f32) (main_arg14 : FVec F S128 .f32) (main_arg15 : FVec F S128x256 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_v48 main_v49 main_v50

def fn_part1 {F : FTy → Type} [FloatOps F] (main_arg4 : FVec F S256x128 .f32) (main_arg5 : FVec F S256 .f32) (main_arg6 : FVec F S256x128 .f32) (main_arg7 : FVec F S256x128 .f32) (main_arg8 : FVec F S256 .f32) (main_arg9 : FVec F S256x128 .f32) (main_arg10 : FVec F S128x256 .f32) (main_arg11 : FVec F S128 .f32) (main_arg12 : FVec F S128x256 .f32) (main_arg13 : FVec F S128x256 .f32) (main_arg14 : FVec F S128 .f32) (main_arg15 : FVec F S128x256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x128 .f32) (main_arg1 : FVec F S200000x128 .f32) (main_arg2 : FVec F S128x128 .f32) (main_arg3 : FVec F S128 .f32) (main_arg4 : FVec F S256x128 .f32) (main_arg5 : FVec F S256 .f32) (main_arg6 : FVec F S256x128 .f32) (main_arg7 : FVec F S256x128 .f32) (main_arg8 : FVec F S256 .f32) (main_arg9 : FVec F S256x128 .f32) (main_arg10 : FVec F S128x256 .f32) (main_arg11 : FVec F S128 .f32) (main_arg12 : FVec F S128x256 .f32) (main_arg13 : FVec F S128x256 .f32) (main_arg14 : FVec F S128 .f32) (main_arg15 : FVec F S128x256 .f32) (main_arg16 : IVec S600000 32) (main_arg17 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S600000 : Shape := ⟨1, ![600000]⟩
abbrev S1x128 : Shape := ⟨2, ![1, 128]⟩
abbrev S2000x128 : Shape := ⟨2, ![2000, 128]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S200000x256 : Shape := ⟨2, ![200000, 256]⟩
abbrev S2000x256 : Shape := ⟨2, ![2000, 256]⟩
abbrev S100000x256 : Shape := ⟨2, ![100000, 256]⟩
abbrev S600000x256 : Shape := ⟨2, ![600000, 256]⟩

abbrev nBuf : Space → Nat
  | .hbm => 80
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S256, .f32⟩
  | .hbm, ⟨9, _⟩ => ⟨S256x128, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S600000, .i32⟩
  | .hbm, ⟨17, _⟩ => ⟨S600000, .i32⟩
  | .hbm, ⟨18, _⟩ => ⟨S1x128, .f32⟩
  | .hbm, ⟨19, _⟩ => ⟨S200000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S200000x128, .f32⟩
  | .hbm, ⟨31, _⟩ => ⟨S600000x1, .i32⟩
  | .hbm, ⟨32, _⟩ => ⟨S200000x128, .f32⟩
  | .hbm, ⟨33, _⟩ => ⟨S1x256, .f32⟩
  | .hbm, ⟨34, _⟩ => ⟨S200000x256, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S100000x128, .f32⟩
  | .hbm, ⟨46, _⟩ => ⟨S600000x1, .i32⟩
  | .hbm, ⟨47, _⟩ => ⟨S100000x128, .f32⟩
  | .hbm, ⟨48, _⟩ => ⟨S1x256, .f32⟩
  | .hbm, ⟨49, _⟩ => ⟨S100000x256, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x256, .f32⟩
  | .hbm, ⟨59, _⟩ => ⟨S_, .f32⟩
  | .hbm, ⟨60, _⟩ => ⟨S200000x256, .f32⟩
  | .hbm, ⟨61, _⟩ => ⟨S600000x1, .i32⟩
  | .hbm, ⟨62, _⟩ => ⟨S200000x256, .f32⟩
  | .hbm, ⟨63, _⟩ => ⟨S1x128, .f32⟩
  | .hbm, ⟨64, _⟩ => ⟨S200000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x256, .f32⟩
  | .hbm, ⟨74, _⟩ => ⟨S_, .f32⟩
  | .hbm, ⟨75, _⟩ => ⟨S100000x256, .f32⟩
  | .hbm, ⟨76, _⟩ => ⟨S600000x1, .i32⟩
  | .hbm, ⟨77, _⟩ => ⟨S100000x256, .f32⟩
  | .hbm, ⟨78, _⟩ => ⟨S1x128, .f32⟩
  | .hbm, ⟨79, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S256x128, .f32⟩
  | .local _ .vmem, ⟨11, _⟩ => ⟨S1x256, .f32⟩
  | .local _ .vmem, ⟨12, _⟩ => ⟨S256x128, .f32⟩
  | .local _ .vmem, ⟨13, _⟩ => ⟨S2000x256, .f32⟩
  | .local _ .vmem, ⟨14, _⟩ => ⟨S2000x256, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S256x128, .f32⟩
  | .local _ .vmem, ⟨20, _⟩ => ⟨S1x256, .f32⟩
  | .local _ .vmem, ⟨21, _⟩ => ⟨S256x128, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S128x256, .f32⟩
  | .local _ .vmem, ⟨29, _⟩ => ⟨S1x128, .f32⟩
  | .local _ .vmem, ⟨30, _⟩ => ⟨S128x256, .f32⟩
  | .local _ .vmem, ⟨31, _⟩ => ⟨S2000x128, .f32⟩
  | .local _ .vmem, ⟨32, _⟩ => ⟨S2000x128, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S128x256, .f32⟩
  | .local _ .vmem, ⟨38, _⟩ => ⟨S1x128, .f32⟩
  | .local _ .vmem, ⟨39, _⟩ => ⟨S128x256, .f32⟩
  | .local _ .vmem, ⟨40, _⟩ => ⟨S2000x128, .f32⟩
  | .local _ .vmem, ⟨41, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  shapeCasts_S256_S1x256 : S256.ShapeCasts S1x256
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x128 : S_.BroadcastsInDim S100000x128 (![] : Fin 0 → Fin S100000x128.rank)
  bcast_S_S200000x256 : S_.BroadcastsInDim S200000x256 (![] : Fin 0 → Fin S200000x256.rank)
  shapeCasts_S2000x256_S2000x256 : S2000x256.ShapeCasts S2000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  bcast_S_S100000x256 : S_.BroadcastsInDim S100000x256 (![] : Fin 0 → Fin S100000x256.rank)
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  dot_S2000x128_S128x256_S2000x256_1_0_0_1_n_n_wf : DotDims.WF S2000x128 S128x256 S2000x256 [1] [0] [0] [1] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  gather_S100000x256_S600000x1_S600000x256_1_0_n_n_0_1_1256_wf : GatherDims.WF S100000x256 S600000x1 S600000x256 [1] [0] [] [0] [] 1 ![1, 256]
  scatter_S200000x256_S600000x1_S600000x256_1_0_0_1_wf : ScatterDims.WF S200000x256 S600000x1 S600000x256 [1] [0] [0] 1
  dot_S2000x256_S256x128_S2000x128_1_0_0_1_n_n_wf : DotDims.WF S2000x256 S256x128 S2000x128 [1] [0] [0] [1] [] []
  gather_S200000x256_S600000x1_S600000x256_1_0_n_n_0_1_1256_wf : GatherDims.WF S200000x256 S600000x1 S600000x256 [1] [0] [] [0] [] 1 ![1, 256]
  scatter_S100000x256_S600000x1_S600000x256_1_0_0_1_wf : ScatterDims.WF S100000x256 S600000x1 S600000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S200000x128.size a
  hwx1_1 : ∀ i : grid1.Coords, EltTy.bits .f32 = 32 ∨ (Rect.block (s := S200000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S200000x256.size a
  hwx1_5 : ∀ i : grid1.Coords, EltTy.bits .f32 = 32 ∨ (Rect.block (s := S200000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S200000x128.size a
  hwx3_5 : ∀ i : grid3.Coords, EltTy.bits .f32 = 32 ∨ (Rect.block (s := S200000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .f32 = 32 ∨ (Rect.block (s := S128x256) S128x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v49) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S200000x256 : Shape := ⟨2, ![200000, 256]⟩
abbrev S1x256 : Shape := ⟨2, ![1, 256]⟩
abbrev S100000x256 : Shape := ⟨2, ![100000, 256]⟩
abbrev S600000x256 : Shape := ⟨2, ![600000, 256]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S256, .f32⟩
  | .hbm, ⟨9, _⟩ => ⟨S256x128, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S600000, .i32⟩
  | .hbm, ⟨17, _⟩ => ⟨S600000, .i32⟩
  | .hbm, ⟨18, _⟩ => ⟨S128x128, .f32⟩
  | .hbm, ⟨19, _⟩ => ⟨S200000x128, .f32⟩
  | .hbm, ⟨20, _⟩ => ⟨S1x128, .f32⟩
  | .hbm, ⟨21, _⟩ => ⟨S200000x128, .f32⟩
  | .hbm, ⟨22, _⟩ => ⟨S200000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S200000x128, .f32⟩
  | .hbm, ⟨34, _⟩ => ⟨S600000x1, .i32⟩
  | .hbm, ⟨35, _⟩ => ⟨S200000x128, .f32⟩
  | .hbm, ⟨36, _⟩ => ⟨S128x256, .f32⟩
  | .hbm, ⟨37, _⟩ => ⟨S200000x256, .f32⟩
  | .hbm, ⟨38, _⟩ => ⟨S1x256, .f32⟩
  | .hbm, ⟨39, _⟩ => ⟨S200000x256, .f32⟩
  | .hbm, ⟨40, _⟩ => ⟨S200000x256, .f32⟩
  | .hbm, ⟨41, _⟩ => ⟨S128x256, .f32⟩
  | .hbm, ⟨42, _⟩ => ⟨S200000x256, .f32⟩
  | .hbm, ⟨43, _⟩ => ⟨S200000x256, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S128x256, .f32⟩
  | .hbm, ⟨58, _⟩ => ⟨S100000x256, .f32⟩
  | .hbm, ⟨59, _⟩ => ⟨S1x256, .f32⟩
  | .hbm, ⟨60, _⟩ => ⟨S100000x256, .f32⟩
  | .hbm, ⟨61, _⟩ => ⟨S100000x256, .f32⟩
  | .hbm, ⟨62, _⟩ => ⟨S128x256, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S200000x256, .f32⟩
  | .hbm, ⟨67, _⟩ => ⟨S200000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x256, .f32⟩
  | .hbm, ⟨80, _⟩ => ⟨S_, .f32⟩
  | .hbm, ⟨81, _⟩ => ⟨S200000x256, .f32⟩
  | .hbm, ⟨82, _⟩ => ⟨S600000x1, .i32⟩
  | .hbm, ⟨83, _⟩ => ⟨S200000x256, .f32⟩
  | .hbm, ⟨84, _⟩ => ⟨S256x128, .f32⟩
  | .hbm, ⟨85, _⟩ => ⟨S200000x128, .f32⟩
  | .hbm, ⟨86, _⟩ => ⟨S1x128, .f32⟩
  | .hbm, ⟨87, _⟩ => ⟨S200000x128, .f32⟩
  | .hbm, ⟨88, _⟩ => ⟨S200000x128, .f32⟩
  | .hbm, ⟨89, _⟩ => ⟨S256x128, .f32⟩
  | .hbm, ⟨90, _⟩ => ⟨S200000x128, .f32⟩
  | .hbm, ⟨91, _⟩ => ⟨S200000x128, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000x256, .f32⟩
  | .hbm, ⟨101, _⟩ => ⟨S_, .f32⟩
  | .hbm, ⟨102, _⟩ => ⟨S100000x256, .f32⟩
  | .hbm, ⟨103, _⟩ => ⟨S600000x1, .i32⟩
  | .hbm, ⟨104, _⟩ => ⟨S100000x256, .f32⟩
  | .hbm, ⟨105, _⟩ => ⟨S256x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S256x128, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_call1_cst : Ref sig .tc := ⟨.hbm, 68, rfl⟩
abbrev main_call1_v0 : Ref sig .tc := ⟨.hbm, 69, rfl⟩
abbrev main_v42 : Ref sig .tc := ⟨.hbm, 70, rfl⟩
abbrev main_c_4 : Ref sig .tc := ⟨.hbm, 71, rfl⟩
abbrev main_v43 : Ref sig .tc := ⟨.hbm, 72, rfl⟩
abbrev main_v44 : Ref sig .tc := ⟨.hbm, 73, rfl⟩
abbrev main_c_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_7 : Ref sig .tc := ⟨.hbm, 92, rfl⟩
abbrev main_v61 : Ref sig .tc := ⟨.hbm, 93, rfl⟩
abbrev main_v62 : Ref sig .tc := ⟨.hbm, 94, rfl⟩
abbrev main_c_8 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  transposes_S256x128_S128x256_1_0 : S256x128.Transposes [1, 0] S128x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S100000x128 : S_.BroadcastsInDim S100000x128 (![] : Fin 0 → Fin S100000x128.rank)
  bcast_S1x256_S100000x256_0_1 : S1x256.BroadcastsInDim S100000x256 (![0, 1] : Fin 2 → Fin S100000x256.rank)
  bcast_S_S200000x256 : S_.BroadcastsInDim S200000x256 (![] : Fin 0 → Fin S200000x256.rank)
  bcast_S_S100000x256 : S_.BroadcastsInDim S100000x256 (![] : Fin 0 → Fin S100000x256.rank)
  transposes_S128x256_S256x128_1_0 : S128x256.Transposes [1, 0] S256x128
  bcast_S1x128_S100000x128_0_1 : S1x128.BroadcastsInDim S100000x128 (![0, 1] : Fin 2 → Fin S100000x128.rank)
  dot_S200000x128_S128x128_S200000x128_1_0_0_1_n_n_wf : DotDims.WF S200000x128 S128x128 S200000x128 [1] [0] [0] [1] [] []
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x256_S200000x256_1_0_0_1_n_n_wf : DotDims.WF S200000x128 S128x256 S200000x256 [1] [0] [0] [1] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S200000x256_S600000x1_S600000x256_1_0_0_1_wf : ScatterDims.WF S200000x256 S600000x1 S600000x256 [1] [0] [0] 1
  dot_S200000x256_S256x128_S200000x128_1_0_0_1_n_n_wf : DotDims.WF S200000x256 S256x128 S200000x128 [1] [0] [0] [1] [] []
  gather_S200000x256_S600000x1_S600000x256_1_0_n_n_0_1_1256_wf : GatherDims.WF S200000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x128_S100000x128_1_0_0_1_n_n_wf : DotDims.WF S100000x256 S256x128 S100000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.PayLin.lean ====
import proofs.«155566_j32839319945244_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.KernelIdeal.Facts₀ Idealize.ShloMosaic Idealize.ShloMosaic.ValueIdx

/-! The linear kernel's body at an entry: `x·Wᵀ + b`. The two narrowings to bf16 are the identity on the extended
reals, the transpose swaps the weight's coordinates, the bias row is spread down the rows. -/

/-! ### The product `[2000, 128] × [128, 128]` read at an index -/

theorem lhs_lin_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_lin_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_lin_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_lin_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into the zero accumulator the product's entry `(p, q)` is `∑ₖ a[p,k]·b[k,q]`. -/
theorem matmul_lin_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_lin_0 _ _
    | ⟨1, _⟩ => exact (lhs_lin_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_lin_0 _ _).trans hk
    | ⟨1, _⟩ => exact rhs_lin_1 _ _)
  rw [el, er]

/-- The body's stored value at `(p, q)`: row `p` of the block against row `q` of the weight, plus the bias at `q`. -/
theorem k0_pay1_apply (x0 : Vec Ideal S2000x128 .f32) (x1 : Vec Ideal S128x128 .f32) (x2 : Vec Ideal S1x128 .f32)
    (p : Fin 2000) (q : Fin 128) :
    (k0_pay1 (F := Ideal) x0 x1 x2) (ix2 p q)
      = (∑ k : Fin 128, x0 (ix2 p k) * x1 (ix2 q k)) + x2 (ix2 (0 : Fin 1) q) := by
  unfold k0_pay1
  show _ + _ = _ + _
  refine congrArg₂ (· + ·) ((matmul_lin_apply _ _ p q).trans (Finset.sum_congr rfl fun k _ => ?_)) ?_
  · refine congrArg₂ (· * ·) rfl ?_
    exact transpose_apply [1, 0] _ _ (ix2 k q) (ix2 q k) (fun b => match b with
      | ⟨0, _⟩ => rfl
      | ⟨1, _⟩ => rfl)
  · exact (broadcastTo_1b_ab_apply _ _ p q).trans (congrFun (shapeCast_self x2 _) _)

end Cert.KernelIdeal.Hand

end
-- ==== Proof.Spec.lean ====
import Idealize.ShloMosaic.PureOps.Ideal
import Idealize.ShloMosaic.Lib.ValueIdx

/-! The three layer functions of the network, index by index on the extended reals.

An affine layer sends row `r` of `x` to `∑ₖ x[r,k]·W[o,k] + b[o]`: the rows of `x` against the ROWS of `W` (that is
`x·Wᵀ`), plus a bias. A graph convolution adds, to the affine layer of the aggregated neighbour features, the root
weight applied to the node's own features, `(∑ₖ agg[r,k]·Wrel[o,k] + b[o]) + ∑ₖ xdst[r,k]·Wroot[o,k]`, grouped exactly
so; the first convolution clamps the sum below at zero. -/

noncomputable section

namespace Cert.Spec

open Idealize.ShloMosaic Idealize.ShloMosaic.ValueIdx

/-- A bias vector laid out as the one row of a `1 × O` array. -/
def rowOf {O : Nat} (b : FVec Ideal ⟨1, ![O]⟩ .f32) : FVec Ideal ⟨2, ![1, O]⟩ .f32 :=
  fun j => b (ix1 (j 1 : Fin O))

/-- `x·Wᵀ + b`, the bias given as a `1 × O` row. -/
def affine {N K O : Nat} (x : FVec Ideal ⟨2, ![N, K]⟩ .f32) (W : FVec Ideal ⟨2, ![O, K]⟩ .f32)
    (b : FVec Ideal ⟨2, ![1, O]⟩ .f32) : FVec Ideal ⟨2, ![N, O]⟩ .f32 :=
  fun i => (∑ k : Fin K, x (ix2 (i 0 : Fin N) k) * W (ix2 (i 1 : Fin O) k)) + b (ix2 (0 : Fin 1) (i 1 : Fin O))

/-- `(agg·Wrelᵀ + b) + xdst·Wrootᵀ`. -/
def conv {N K O : Nat} (agg xdst : FVec Ideal ⟨2, ![N, K]⟩ .f32) (Wrel : FVec Ideal ⟨2, ![O, K]⟩ .f32)
    (b : FVec Ideal ⟨2, ![1, O]⟩ .f32) (Wroot : FVec Ideal ⟨2, ![O, K]⟩ .f32) : FVec Ideal ⟨2, ![N, O]⟩ .f32 :=
  fun i => affine agg Wrel b i + ∑ k : Fin K, xdst (ix2 (i 0 : Fin N) k) * Wroot (ix2 (i 1 : Fin O) k)

/-- The same clamped below at the f32 zero. -/
def convRelu {N K O : Nat} (agg xdst : FVec Ideal ⟨2, ![N, K]⟩ .f32) (Wrel : FVec Ideal ⟨2, ![O, K]⟩ .f32)
    (b : FVec Ideal ⟨2, ![1, O]⟩ .f32) (Wroot : FVec Ideal ⟨2, ![O, K]⟩ .f32) : FVec Ideal ⟨2, ![N, O]⟩ .f32 :=
  fun i => max (conv agg xdst Wrel b Wroot i) (Ideal.ofBits .f32 0x00000000#32)

theorem affine_apply {N K O : Nat} (x : FVec Ideal ⟨2, ![N, K]⟩ .f32) (W : FVec Ideal ⟨2, ![O, K]⟩ .f32)
    (b : FVec Ideal ⟨2, ![1, O]⟩ .f32) (r : Fin N) (o : Fin O) :
    affine x W b (ix2 r o) = (∑ k : Fin K, x (ix2 r k) * W (ix2 o k)) + b (ix2 (0 : Fin 1) o) := rfl

theorem conv_apply {N K O : Nat} (agg xdst : FVec Ideal ⟨2, ![N, K]⟩ .f32) (Wrel : FVec Ideal ⟨2, ![O, K]⟩ .f32)
    (b : FVec Ideal ⟨2, ![1, O]⟩ .f32) (Wroot : FVec Ideal ⟨2, ![O, K]⟩ .f32) (r : Fin N) (o : Fin O) :
    conv agg xdst Wrel b Wroot (ix2 r o)
      = ((∑ k : Fin K, agg (ix2 r k) * Wrel (ix2 o k)) + b (ix2 (0 : Fin 1) o)) + ∑ k : Fin K, xdst (ix2 r k) * Wroot (ix2 o k) := rfl

theorem convRelu_apply {N K O : Nat} (agg xdst : FVec Ideal ⟨2, ![N, K]⟩ .f32) (Wrel : FVec Ideal ⟨2, ![O, K]⟩ .f32)
    (b : FVec Ideal ⟨2, ![1, O]⟩ .f32) (Wroot : FVec Ideal ⟨2, ![O, K]⟩ .f32) (r : Fin N) (o : Fin O) :
    convRelu agg xdst Wrel b Wroot (ix2 r o)
      = max (((∑ k : Fin K, agg (ix2 r k) * Wrel (ix2 o k)) + b (ix2 (0 : Fin 1) o)) + ∑ k : Fin K, xdst (ix2 r k) * Wroot (ix2 o k))
          (Ideal.ofBits .f32 0x00000000#32) := rfl

end Cert.Spec

end
-- ==== Proof.Region0.lean ====
import proofs.«155566_j32839319945244_1_alg».proof.Proof.KernelIdealFrameP
import proofs.«155566_j32839319945244_1_alg».proof.Proof.PayLin
import proofs.«155566_j32839319945244_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! Region 0, the issue features' affine layer. Point `t` of the 100-point grid reads rows `2000·t … 2000·t + 1999` of
`x_issue`, the whole weight and the whole bias row, and writes the same rows of the result; the 100 row blocks tile the
result array, so after the region it holds `Spec.affine` of the arrays the region found. -/

theorem hz0 : (![0, 0] : Fin 2 → Nat) = fun _ => 0 := funext fun a => by fin_cases a <;> rfl

/-- The printed index maps over the grid: the row windows move with the point, the weight and bias windows stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `2000·t + ·` of the array. -/
theorem iblk0_0_apply (c : Dev nD) (t : Fin cfg0.N) (p : Fin 2000) (k : Fin 128) (r : Fin 200000) (hr : r.val = 2000 * t.val + p.val) :
    (iblk0 V c 0 t : Vec Ideal S2000x128 .f32) (ix2 p k) = (V c main_arg1 : S200000x128.Idx → Ideal .f32) (ix2 r k) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The weight window's block is the whole weight. -/
theorem iblk0_1_apply (c : Dev nD) (t : Fin cfg0.N) (o : Fin 128) (k : Fin 128) :
    (iblk0 V c 1 t : Vec Ideal S128x128 .f32) (ix2 o k) = (V c main_arg2 : S128x128.Idx → Ideal .f32) (ix2 o k) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t 0 * 128 + 1 * o.val = o.val; rw [e0]; omega
  | ⟨1, _⟩ => show win0_1.index t 1 * 128 + 1 * k.val = k.val; rw [e1]; omega

/-- The bias window's block is the whole bias row. -/
theorem iblk0_2_apply (c : Dev nD) (t : Fin cfg0.N) (o : Fin 128) :
    (iblk0 V c 2 t : Vec Ideal S1x128 .f32) (ix2 (0 : Fin 1) o) = (V c main_v0 : S1x128.Idx → Ideal .f32) (ix2 (0 : Fin 1) o) := by
  obtain ⟨-, -, -, -, e0, e1, -⟩ := idx_facts0 t
  unfold iblk0
  rw [View.read_apply]
  show V c main_v0 _ = V c main_v0 _
  congr 1
  funext a
  apply Fin.ext
  match a with
  | ⟨0, _⟩ => show win0_2.index t 0 * 1 + 1 * 0 = 0; rw [e0]
  | ⟨1, _⟩ => show win0_2.index t 1 * 128 + 1 * o.val = o.val; rw [e1]; omega

/-- Where the output window's block at point `t` sits in the result array. -/
theorem oblk0_emb (t : Fin cfg0.N) (p : Fin 2000) (q : Fin 128) (r : Fin 200000) (hr : r.val = 2000 * t.val + p.val) :
    ((cfg0.win 3).blk t).view.emb (ix2 p q) = (ix2 r q : S200000x128.Idx) := by
  obtain ⟨-, -, -, -, -, -, e0, e1⟩ := idx_facts0 t
  funext a
  apply Fin.ext
  match a with
  | ⟨0, _⟩ => show win0_3.index t 0 * 2000 + 1 * p.val = r.val; rw [e0, hr]; omega
  | ⟨1, _⟩ => show win0_3.index t 1 * 128 + 1 * q.val = q.val; rw [e1]; omega

/-- What point `t` writes back is its block of the affine layer of the entry arrays. -/
theorem flushed0_eq (c : Dev nD) (t : Fin cfg0.N) :
    (dat0 V c).flushed 3 t = ((cfg0.win 3).blk t).view.read (Elt Ideal)
      (Spec.affine (V c main_arg1) (V c main_arg2) (V c main_v0)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0, View.ld_unit_zero (S := S1x128) hz0]
  funext j
  obtain ⟨p, q, rfl⟩ : ∃ (p : Fin 2000) (q : Fin 128), j = ix2 p q := ⟨j 0, j 1, eq_ix2 j⟩
  have ht : 2000 * t.val + p.val < 200000 := by
    have h1 : t.val < 100 := lt_of_lt_of_eq t.isLt N_0
    have h2 := p.isLt
    omega
  refine (k0_pay1_apply (iblk0 V c 0 t) (iblk0 V c 1 t) (iblk0 V c 2 t) p q).trans ?_
  rw [View.read_apply, oblk0_emb t p q ⟨2000 * t.val + p.val, ht⟩ rfl, Spec.affine_apply]
  refine congrArg₂ (· + ·) (Finset.sum_congr rfl fun k _ => congrArg₂ (· * ·) ?_ ?_) ?_
  · exact iblk0_0_apply V c t p k ⟨2000 * t.val + p.val, ht⟩ rfl
  · exact iblk0_1_apply V c t q k
  · exact iblk0_2_apply V c t q

/-- An index of the result array is in point `t`'s block iff its row is among the block's rows. -/
theorem mem_blk0 (t : Fin cfg0.N) (i : S200000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every row of the result is in the block of the point `row / 2000`. -/
theorem cover0 (i : S200000x128.Idx) : ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 100 := N_0
  refine ⟨⟨(i 0).val / 2000, by rw [hN]; omega⟩, flush0_3 _, ?_⟩
  rw [mem_blk0]
  obtain ⟨-, -, -, -, -, -, e0, e1⟩ := idx_facts0 ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ _ ∧ _ < (i 0).val / 2000 * 2000 + 2000; omega
  | ⟨1, _⟩ => show win0_3.index _ (1 : Fin 2) * 128 ≤ (i 1).val ∧ (i 1).val < win0_3.index _ (1 : Fin 2) * 128 + 128; rw [e1]; omega

/-- After region 0 its result array is the affine layer of the arrays the region found. -/
theorem final0 (c : Dev nD) :
    (dat0 V c).arrAt 3 cfg0.N = Spec.affine (V c main_arg1) (V c main_arg2) (V c main_v0) :=
  (dat0 V c).arrAt_eq_of_cover 3 _ (fun t _ => flushed0_eq V c t) cover0

end Cert.KernelIdeal.Hand

end
-- ==== Proof.PayConvRelu.lean ====
import proofs.«155566_j32839319945244_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.KernelIdeal.Facts₀ Idealize.ShloMosaic Idealize.ShloMosaic.ValueIdx

/-! The first convolutions' body at an entry: `max ((agg·Wrelᵀ + b) + xdst·Wrootᵀ) 0`. The narrowings to bf16 and
the same-shape casts are the identity on the extended reals; each transpose swaps a weight's coordinates; the bias row
is spread down the rows; the clamp is against the f32 zero. -/

/-! ### The product `[2000, 128] × [128, 256]` read at an index -/

theorem lhs_cr_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_cr_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_cr_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_cr_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Into the zero accumulator the product's entry `(p, q)` is `∑ₖ a[p,k]·b[k,q]`. -/
theorem matmul_cr_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun ax => Fin.ext (by
    match ax with
    | ⟨0, _⟩ => exact lhs_cr_0 _ _
    | ⟨1, _⟩ => exact (lhs_cr_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun ax => Fin.ext (by
    match ax with
    | ⟨0, _⟩ => exact (rhs_cr_0 _ _).trans hk
    | ⟨1, _⟩ => exact rhs_cr_1 _ _)
  rw [el, er]

/-- The issue-side body's stored value at `(p, q)`. -/
theorem k1_pay1_apply (agg xdst : Vec Ideal S2000x128 .f32) (relW rootW : Vec Ideal S256x128 .f32) (relb : Vec Ideal S1x256 .f32)
    (p : Fin 2000) (q : Fin 256) :
    (k1_pay1 (F := Ideal) agg xdst relW rootW relb) (ix2 p q)
      = max (((∑ k : Fin 128, agg (ix2 p k) * relW (ix2 q k)) + relb (ix2 (0 : Fin 1) q))
          + ∑ k : Fin 128, xdst (ix2 p k) * rootW (ix2 q k)) (Ideal.ofBits .f32 0x00000000#32) := by
  unfold k1_pay1
  show max ((_ + _) + _) _ = max ((_ + _) + _) _
  refine congrArg₂ max (congrArg₂ (· + ·) (congrArg₂ (· + ·) ?_ ?_) ?_) rfl
  · exact ((matmul_cr_apply _ _ p q).trans (Finset.sum_congr rfl fun k _ => congrArg₂ (· * ·)
        (congrFun (shapeCast_self agg _) (ix2 p k))
        (transpose_apply [1, 0] _ _ (ix2 k q) (ix2 q k) (fun b => match b with
          | ⟨0, _⟩ => rfl
          | ⟨1, _⟩ => rfl))))
  · exact ((broadcastTo_1b_ab_apply _ _ p q).trans (congrFun (shapeCast_self relb _) _))
  · exact ((matmul_cr_apply _ _ p q).trans (Finset.sum_congr rfl fun k _ => congrArg₂ (· * ·)
        (congrFun (shapeCast_self xdst _) (ix2 p k))
        (transpose_apply [1, 0] _ _ (ix2 k q) (ix2 q k) (fun b => match b with
          | ⟨0, _⟩ => rfl
          | ⟨1, _⟩ => rfl))))

/-- The user-side body's stored value at `(p, q)`: the same function. -/
theorem k2_pay1_apply (agg xdst : Vec Ideal S2000x128 .f32) (relW rootW : Vec Ideal S256x128 .f32) (relb : Vec Ideal S1x256 .f32)
    (p : Fin 2000) (q : Fin 256) :
    (k2_pay1 (F := Ideal) agg xdst relW rootW relb) (ix2 p q)
      = max (((∑ k : Fin 128, agg (ix2 p k) * relW (ix2 q k)) + relb (ix2 (0 : Fin 1) q))
          + ∑ k : Fin 128, xdst (ix2 p k) * rootW (ix2 q k)) (Ideal.ofBits .f32 0x00000000#32) := by
  unfold k2_pay1
  show max ((_ + _) + _) _ = max ((_ + _) + _) _
  refine congrArg₂ max (congrArg₂ (· + ·) (congrArg₂ (· + ·) ?_ ?_) ?_) rfl
  · exact ((matmul_cr_apply _ _ p q).trans (Finset.sum_congr rfl fun k _ => congrArg₂ (· * ·)
        (congrFun (shapeCast_self agg _) (ix2 p k))
        (transpose_apply [1, 0] _ _ (ix2 k q) (ix2 q k) (fun b => match b with
          | ⟨0, _⟩ => rfl
          | ⟨1, _⟩ => rfl))))
  · exact ((broadcastTo_1b_ab_apply _ _ p q).trans (congrFun (shapeCast_self relb _) _))
  · exact ((matmul_cr_apply _ _ p q).trans (Finset.sum_congr rfl fun k _ => congrArg₂ (· * ·)
        rfl
        (transpose_apply [1, 0] _ _ (ix2 k q) (ix2 q k) (fun b => match b with
          | ⟨0, _⟩ => rfl
          | ⟨1, _⟩ => rfl))))

end Cert.KernelIdeal.Hand

end
-- ==== Proof.Region1.lean ====
import proofs.«155566_j32839319945244_1_alg».proof.Proof.KernelIdealFrameP
import proofs.«155566_j32839319945244_1_alg».proof.Proof.PayConvRelu
import proofs.«155566_j32839319945244_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! Region 1, a graph convolution over row blocks. Point `t` of the 100-point grid reads rows `2000·t … 2000·t + 1999` of the
aggregated neighbour features and of the nodes' own features, the two whole weights and the whole bias row, and writes the
same rows of the result; the 100 row blocks tile the result array, so after the region it holds `Spec.convRelu` of the arrays
the region found. -/

theorem hz1 : (![0, 0] : Fin 2 → Nat) = fun _ => 0 := funext fun a => by fin_cases a <;> rfl

/-- The printed index maps over the grid: the row windows move with the point, the weight and bias windows stay. -/
theorem idx_facts1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The aggregate's window at point `t` is rows `2000·t + ·` of its array. -/
theorem iblk1_0_apply (c : Dev nD) (t : Fin cfg1.N) (p : Fin 2000) (k : Fin 128) (r : Fin 200000) (hr : r.val = 2000 * t.val + p.val) :
    (iblk1 V c 0 t : Vec Ideal S2000x128 .f32) (ix2 p k) = (V c main_v11 : S200000x128.Idx → Ideal .f32) (ix2 r k) := by
  obtain ⟨⟨e0, e1⟩, -⟩ := idx_facts1 t
  unfold iblk1
  rw [View.read_apply]
  show V c main_v11 _ = V c main_v11 _
  congr 1
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

/-- The node features' window at point `t` is rows `2000·t + ·` of its array. -/
theorem iblk1_1_apply (c : Dev nD) (t : Fin cfg1.N) (p : Fin 2000) (k : Fin 128) (r : Fin 200000) (hr : r.val = 2000 * t.val + p.val) :
    (iblk1 V c 1 t : Vec Ideal S2000x128 .f32) (ix2 p k) = (V c main_v1 : S200000x128.Idx → Ideal .f32) (ix2 r k) := by
  obtain ⟨-, ⟨e0, e1⟩, -⟩ := idx_facts1 t
  unfold iblk1
  rw [View.read_apply]
  show V c main_v1 _ = V c main_v1 _
  congr 1
  funext a
  apply Fin.ext
  match a with
  | ⟨0, _⟩ => show win1_1.index t 0 * 2000 + 1 * p.val = r.val; rw [e0, hr]; omega
  | ⟨1, _⟩ => show win1_1.index t 1 * 128 + 1 * k.val = k.val; rw [e1]; omega

/-- The neighbour weight's window is the whole weight. -/
theorem iblk1_2_apply (c : Dev nD) (t : Fin cfg1.N) (o : Fin 256) (k : Fin 128) :
    (iblk1 V c 2 t : Vec Ideal S256x128 .f32) (ix2 o k) = (V c main_arg4 : S256x128.Idx → Ideal .f32) (ix2 o k) := by
  obtain ⟨-, -, ⟨e0, e1⟩, -⟩ := idx_facts1 t
  unfold iblk1
  rw [View.read_apply]
  show V c main_arg4 _ = V c main_arg4 _
  congr 1
  funext a
  apply Fin.ext
  match a with
  | ⟨0, _⟩ => show win1_2.index t 0 * 256 + 1 * o.val = o.val; rw [e0]; omega
  | ⟨1, _⟩ => show win1_2.index t 1 * 128 + 1 * k.val = k.val; rw [e1]; omega

/-- The bias window is the whole bias row. -/
theorem iblk1_3_apply (c : Dev nD) (t : Fin cfg1.N) (o : Fin 256) :
    (iblk1 V c 3 t : Vec Ideal S1x256 .f32) (ix2 (0 : Fin 1) o) = (V c main_v12 : S1x256.Idx → Ideal .f32) (ix2 (0 : Fin 1) o) := by
  obtain ⟨-, -, -, ⟨e0, e1⟩, -⟩ := idx_facts1 t
  unfold iblk1
  rw [View.read_apply]
  show V c main_v12 _ = V c main_v12 _
  congr 1
  funext a
  apply Fin.ext
  match a with
  | ⟨0, _⟩ => show win1_3.index t 0 * 1 + 1 * 0 = 0; rw [e0]
  | ⟨1, _⟩ => show win1_3.index t 1 * 256 + 1 * o.val = o.val; rw [e1]; omega

/-- The root weight's window is the whole weight. -/
theorem iblk1_4_apply (c : Dev nD) (t : Fin cfg1.N) (o : Fin 256) (k : Fin 128) :
    (iblk1 V c 4 t : Vec Ideal S256x128 .f32) (ix2 o k) = (V c main_arg6 : S256x128.Idx → Ideal .f32) (ix2 o k) := by
  obtain ⟨-, -, -, -, ⟨e0, e1⟩, -⟩ := idx_facts1 t
  unfold iblk1
  rw [View.read_apply]
  show V c main_arg6 _ = V c main_arg6 _
  congr 1
  funext a
  apply Fin.ext
  match a with
  | ⟨0, _⟩ => show win1_4.index t 0 * 256 + 1 * o.val = o.val; rw [e0]; omega
  | ⟨1, _⟩ => show win1_4.index t 1 * 128 + 1 * k.val = k.val; rw [e1]; omega

/-- Where the output window's block at point `t` sits in the result array. -/
theorem oblk1_emb (t : Fin cfg1.N) (p : Fin 2000) (q : Fin 256) (r : Fin 200000) (hr : r.val = 2000 * t.val + p.val) :
    ((cfg1.win 5).blk t).view.emb (ix2 p q) = (ix2 r q : S200000x256.Idx) := by
  obtain ⟨-, -, -, -, -, ⟨e0, e1⟩⟩ := idx_facts1 t
  funext a
  apply Fin.ext
  match a with
  | ⟨0, _⟩ => show win1_5.index t 0 * 2000 + 1 * p.val = r.val; rw [e0, hr]; omega
  | ⟨1, _⟩ => show win1_5.index t 1 * 256 + 1 * q.val = q.val; rw [e1]; omega

/-- What point `t` writes back is its block of `Spec.convRelu` of the entry arrays. -/
theorem flushed1_eq (c : Dev nD) (t : Fin cfg1.N) :
    (dat1 V c).flushed 5 t = ((cfg1.win 5).blk t).view.read (Elt Ideal)
      (Spec.convRelu (V c main_v11) (V c main_v1) (V c main_arg4) (V c main_v12) (V c main_arg6)) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S256x128) hz1, View.ld_unit_zero (S := S1x256) hz1]
  funext j
  obtain ⟨p, q, rfl⟩ : ∃ (p : Fin 2000) (q : Fin 256), j = ix2 p q := ⟨j 0, j 1, eq_ix2 j⟩
  have ht : 2000 * t.val + p.val < 200000 := by
    have h1 : t.val < 100 := lt_of_lt_of_eq t.isLt N_1
    have h2 := p.isLt
    omega
  refine (k1_pay1_apply (iblk1 V c 0 t) (iblk1 V c 1 t) (iblk1 V c 2 t) (iblk1 V c 4 t) (iblk1 V c 3 t) p q).trans ?_
  rw [View.read_apply, oblk1_emb t p q ⟨2000 * t.val + p.val, ht⟩ rfl, Spec.convRelu_apply]
  simp only [fun k => iblk1_0_apply V c t p k ⟨2000 * t.val + p.val, ht⟩ rfl, fun k => iblk1_1_apply V c t p k ⟨2000 * t.val + p.val, ht⟩ rfl,
    iblk1_2_apply V c t, iblk1_3_apply V c t, iblk1_4_apply V c t]
  rfl

/-- An index of the result array is in point `t`'s block iff its row is among the block's rows. -/
theorem mem_blk1 (t : Fin cfg1.N) (i : S200000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v13).slice (win1_5.rect t)).set ↔ _
  rw [View.set_slice_whole, Rect.mem_set_unit]
  exact Iff.rfl

/-- Every row of the result is in the block of the point `row / 2000`. -/
theorem cover1 (i : S200000x256.Idx) : ∃ t : Fin cfg1.N, (cfg1.win 5).flush t = true ∧ i ∈ ((cfg1.win 5).blk t).view.set := by
  have hi0 : (i 0).val < 200000 := (i 0).isLt
  have hi1 : (i 1).val < 256 := (i 1).isLt
  have hN : cfg1.N = 100 := N_1
  refine ⟨⟨(i 0).val / 2000, by rw [hN]; omega⟩, flush1_5 _, ?_⟩
  rw [mem_blk1]
  obtain ⟨-, -, -, -, -, ⟨e0, e1⟩⟩ := idx_facts1 ⟨(i 0).val / 2000, by rw [hN]; omega⟩
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ _ ∧ _ < (i 0).val / 2000 * 2000 + 2000; omega
  | ⟨1, _⟩ => show win1_5.index _ (1 : Fin 2) * 256 ≤ (i 1).val ∧ (i 1).val < win1_5.index _ (1 : Fin 2) * 256 + 256; rw [e1]; omega

/-- After region 1 its result array is `Spec.convRelu` of the arrays the region found. -/
theorem final1 (c : Dev nD) :
    (dat1 V c).arrAt 5 cfg1.N = Spec.convRelu (V c main_v11) (V c main_v1) (V c main_arg4) (V c main_v12) (V c main_arg6) :=
  (dat1 V c).arrAt_eq_of_cover 5 _ (fun t _ => flushed1_eq V c t) cover1

end Cert.KernelIdeal.Hand

end
-- ==== Proof.Region2.lean ====
import proofs.«155566_j32839319945244_1_alg».proof.Proof.KernelIdealFrameP
import proofs.«155566_j32839319945244_1_alg».proof.Proof.PayConvRelu
import proofs.«155566_j32839319945244_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! Region 2, a graph convolution over row blocks. Point `t` of the 50-point grid reads rows `2000·t … 2000·t + 1999` of the
aggregated neighbour features and of the nodes' own features, the two whole weights and the whole bias row, and writes the
same rows of the result; the 50 row blocks tile the result array, so after the region it holds `Spec.convRelu` of the arrays
the region found. -/

theorem hz2 : (![0, 0] : Fin 2 → Nat) = fun _ => 0 := funext fun a => by fin_cases a <;> rfl

/-- The printed index maps over the grid: the row windows move with the point, the weight and bias windows stay. -/
theorem idx_facts2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- The aggregate's window at point `t` is rows `2000·t + ·` of its array. -/
theorem iblk2_0_apply (c : Dev nD) (t : Fin cfg2.N) (p : Fin 2000) (k : Fin 128) (r : Fin 100000) (hr : r.val = 2000 * t.val + p.val) :
    (iblk2 V c 0 t : Vec Ideal S2000x128 .f32) (ix2 p k) = (V c main_v23 : S100000x128.Idx → Ideal .f32) (ix2 r k) := by
  obtain ⟨⟨e0, e1⟩, -⟩ := idx_facts2 t
  unfold iblk2
  rw [View.read_apply]
  show V c main_v23 _ = V c main_v23 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The node features' window at point `t` is rows `2000·t + ·` of its array. -/
theorem iblk2_1_apply (c : Dev nD) (t : Fin cfg2.N) (p : Fin 2000) (k : Fin 128) (r : Fin 100000) (hr : r.val = 2000 * t.val + p.val) :
    (iblk2 V c 1 t : Vec Ideal S2000x128 .f32) (ix2 p k) = (V c main_arg0 : S100000x128.Idx → Ideal .f32) (ix2 r k) := by
  obtain ⟨-, ⟨e0, e1⟩, -⟩ := idx_facts2 t
  unfold iblk2
  rw [View.read_apply]
  show V c main_arg0 _ = V c main_arg0 _
  congr 1
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- The neighbour weight's window is the whole weight. -/
theorem iblk2_2_apply (c : Dev nD) (t : Fin cfg2.N) (o : Fin 256) (k : Fin 128) :
    (iblk2 V c 2 t : Vec Ideal S256x128 .f32) (ix2 o k) = (V c main_arg7 : S256x128.Idx → Ideal .f32) (ix2 o k) := by
  obtain ⟨-, -, ⟨e0, e1⟩, -⟩ := idx_facts2 t
  unfold iblk2
  rw [View.read_apply]
  show V c main_arg7 _ = V c main_arg7 _
  congr 1
  funext a
  apply Fin.ext
  match a with
  | ⟨0, _⟩ => show win2_2.index t 0 * 256 + 1 * o.val = o.val; rw [e0]; omega
  | ⟨1, _⟩ => show win2_2.index t 1 * 128 + 1 * k.val = k.val; rw [e1]; omega

/-- The bias window is the whole bias row. -/
theorem iblk2_3_apply (c : Dev nD) (t : Fin cfg2.N) (o : Fin 256) :
    (iblk2 V c 3 t : Vec Ideal S1x256 .f32) (ix2 (0 : Fin 1) o) = (V c main_v24 : S1x256.Idx → Ideal .f32) (ix2 (0 : Fin 1) o) := by
  obtain ⟨-, -, -, ⟨e0, e1⟩, -⟩ := idx_facts2 t
  unfold iblk2
  rw [View.read_apply]
  show V c main_v24 _ = V c main_v24 _
  congr 1
  funext a
  apply Fin.ext
  match a with
  | ⟨0, _⟩ => show win2_3.index t 0 * 1 + 1 * 0 = 0; rw [e0]
  | ⟨1, _⟩ => show win2_3.index t 1 * 256 + 1 * o.val = o.val; rw [e1]; omega

/-- The root weight's window is the whole weight. -/
theorem iblk2_4_apply (c : Dev nD) (t : Fin cfg2.N) (o : Fin 256) (k : Fin 128) :
    (iblk2 V c 4 t : Vec Ideal S256x128 .f32) (ix2 o k) = (V c main_arg9 : S256x128.Idx → Ideal .f32) (ix2 o k) := by
  obtain ⟨-, -, -, -, ⟨e0, e1⟩, -⟩ := idx_facts2 t
  unfold iblk2
  rw [View.read_apply]
  show V c main_arg9 _ = V c main_arg9 _
  congr 1
  funext a
  apply Fin.ext
  match a with
  | ⟨0, _⟩ => show win2_4.index t 0 * 256 + 1 * o.val = o.val; rw [e0]; omega
  | ⟨1, _⟩ => show win2_4.index t 1 * 128 + 1 * k.val = k.val; rw [e1]; omega

/-- Where the output window's block at point `t` sits in the result array. -/
theorem oblk2_emb (t : Fin cfg2.N) (p : Fin 2000) (q : Fin 256) (r : Fin 100000) (hr : r.val = 2000 * t.val + p.val) :
    ((cfg2.win 5).blk t).view.emb (ix2 p q) = (ix2 r q : S100000x256.Idx) := by
  obtain ⟨-, -, -, -, -, ⟨e0, e1⟩⟩ := idx_facts2 t
  funext a
  apply Fin.ext
  match a with
  | ⟨0, _⟩ => show win2_5.index t 0 * 2000 + 1 * p.val = r.val; rw [e0, hr]; omega
  | ⟨1, _⟩ => show win2_5.index t 1 * 256 + 1 * q.val = q.val; rw [e1]; omega

/-- What point `t` writes back is its block of `Spec.convRelu` of the entry arrays. -/
theorem flushed2_eq (c : Dev nD) (t : Fin cfg2.N) :
    (dat2 V c).flushed 5 t = ((cfg2.win 5).blk t).view.read (Elt Ideal)
      (Spec.convRelu (V c main_v23) (V c main_arg0) (V c main_arg7) (V c main_v24) (V c main_arg9)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S256x128) hz2, View.ld_unit_zero (S := S1x256) hz2]
  funext j
  obtain ⟨p, q, rfl⟩ : ∃ (p : Fin 2000) (q : Fin 256), j = ix2 p q := ⟨j 0, j 1, eq_ix2 j⟩
  have ht : 2000 * t.val + p.val < 100000 := by
    have h1 : t.val < 50 := lt_of_lt_of_eq t.isLt N_2
    have h2 := p.isLt
    omega
  refine (k2_pay1_apply (iblk2 V c 0 t) (iblk2 V c 1 t) (iblk2 V c 2 t) (iblk2 V c 4 t) (iblk2 V c 3 t) p q).trans ?_
  rw [View.read_apply, oblk2_emb t p q ⟨2000 * t.val + p.val, ht⟩ rfl, Spec.convRelu_apply]
  simp only [fun k => iblk2_0_apply V c t p k ⟨2000 * t.val + p.val, ht⟩ rfl, fun k => iblk2_1_apply V c t p k ⟨2000 * t.val + p.val, ht⟩ rfl,
    iblk2_2_apply V c t, iblk2_3_apply V c t, iblk2_4_apply V c t]
  rfl

/-- An index of the result array is in point `t`'s block iff its row is among the block's rows. -/
theorem mem_blk2 (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v25).slice (win2_5.rect t)).set ↔ _
  rw [View.set_slice_whole, Rect.mem_set_unit]
  exact Iff.rfl

/-- Every row of the result is in the block of the point `row / 2000`. -/
theorem cover2 (i : S100000x256.Idx) : ∃ t : Fin cfg2.N, (cfg2.win 5).flush t = true ∧ i ∈ ((cfg2.win 5).blk t).view.set := by
  have hi0 : (i 0).val < 100000 := (i 0).isLt
  have hi1 : (i 1).val < 256 := (i 1).isLt
  have hN : cfg2.N = 50 := N_2
  refine ⟨⟨(i 0).val / 2000, by rw [hN]; omega⟩, flush2_5 _, ?_⟩
  rw [mem_blk2]
  obtain ⟨-, -, -, -, -, ⟨e0, e1⟩⟩ := idx_facts2 ⟨(i 0).val / 2000, by rw [hN]; omega⟩
  intro a
  match a with
  | ⟨0, _⟩ => show win2_5.index _ (0 : Fin 2) * 2000 ≤ (i 0).val ∧ (i 0).val < win2_5.index _ (0 : Fin 2) * 2000 + 2000; rw [e0]; show (i 0).val / 2000 * 2000 ≤ _ ∧ _ < (i 0).val / 2000 * 2000 + 2000; omega
  | ⟨1, _⟩ => show win2_5.index _ (1 : Fin 2) * 256 ≤ (i 1).val ∧ (i 1).val < win2_5.index _ (1 : Fin 2) * 256 + 256; rw [e1]; omega

/-- After region 2 its result array is `Spec.convRelu` of the arrays the region found. -/
theorem final2 (c : Dev nD) :
    (dat2 V c).arrAt 5 cfg2.N = Spec.convRelu (V c main_v23) (V c main_arg0) (V c main_arg7) (V c main_v24) (V c main_arg9) :=
  (dat2 V c).arrAt_eq_of_cover 5 _ (fun t _ => flushed2_eq V c t) cover2

end Cert.KernelIdeal.Hand

end
-- ==== Proof.PayConv.lean ====
import proofs.«155566_j32839319945244_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.KernelIdeal.Facts₀ Idealize.ShloMosaic Idealize.ShloMosaic.ValueIdx

/-! The second convolutions' body at an entry: `(agg·Wrelᵀ + b) + xdst·Wrootᵀ` over 256 input features, no clamp. -/

/-! ### The product `[2000, 256] × [256, 128]` read at an index -/

theorem lhs_cv_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_cv_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_cv_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_cv_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Into the zero accumulator the product's entry `(p, q)` is `∑ₖ a[p,k]·b[k,q]`. -/
theorem matmul_cv_apply (a : FVec Ideal S2000x256 .bf16) (b : FVec Ideal S256x128 .bf16) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun ax => Fin.ext (by
    match ax with
    | ⟨0, _⟩ => exact lhs_cv_0 _ _
    | ⟨1, _⟩ => exact (lhs_cv_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun ax => Fin.ext (by
    match ax with
    | ⟨0, _⟩ => exact (rhs_cv_0 _ _).trans hk
    | ⟨1, _⟩ => exact rhs_cv_1 _ _)
  rw [el, er]

/-- The issue-side body's stored value at `(p, q)`. -/
theorem k3_pay1_apply (agg xdst : Vec Ideal S2000x256 .f32) (relW rootW : Vec Ideal S128x256 .f32) (relb : Vec Ideal S1x128 .f32)
    (p : Fin 2000) (q : Fin 128) :
    (k3_pay1 (F := Ideal) agg xdst relW rootW relb) (ix2 p q)
      = ((∑ k : Fin 256, agg (ix2 p k) * relW (ix2 q k)) + relb (ix2 (0 : Fin 1) q))
          + ∑ k : Fin 256, xdst (ix2 p k) * rootW (ix2 q k) := by
  unfold k3_pay1
  show (_ + _) + _ = (_ + _) + _
  refine congrArg₂ (· + ·) (congrArg₂ (· + ·) ?_ ?_) ?_
  · exact ((matmul_cv_apply _ _ p q).trans (Finset.sum_congr rfl fun k _ => congrArg₂ (· * ·)
        (congrFun (shapeCast_self agg _) (ix2 p k))
        (transpose_apply [1, 0] _ _ (ix2 k q) (ix2 q k) (fun b => match b with
          | ⟨0, _⟩ => rfl
          | ⟨1, _⟩ => rfl))))
  · exact ((broadcastTo_1b_ab_apply _ _ p q).trans (congrFun (shapeCast_self relb _) _))
  · exact ((matmul_cv_apply _ _ p q).trans (Finset.sum_congr rfl fun k _ => congrArg₂ (· * ·)
        (congrFun (shapeCast_self xdst _) (ix2 p k))
        (transpose_apply [1, 0] _ _ (ix2 k q) (ix2 q k) (fun b => match b with
          | ⟨0, _⟩ => rfl
          | ⟨1, _⟩ => rfl))))

/-- The user-side body's stored value at `(p, q)`: the same function. -/
theorem k4_pay1_apply (agg xdst : Vec Ideal S2000x256 .f32) (relW rootW : Vec Ideal S128x256 .f32) (relb : Vec Ideal S1x128 .f32)
    (p : Fin 2000) (q : Fin 128) :
    (k4_pay1 (F := Ideal) agg xdst relW rootW relb) (ix2 p q)
      = ((∑ k : Fin 256, agg (ix2 p k) * relW (ix2 q k)) + relb (ix2 (0 : Fin 1) q))
          + ∑ k : Fin 256, xdst (ix2 p k) * rootW (ix2 q k) := by
  unfold k4_pay1
  show (_ + _) + _ = (_ + _) + _
  refine congrArg₂ (· + ·) (congrArg₂ (· + ·) ?_ ?_) ?_
  · exact ((matmul_cv_apply _ _ p q).trans (Finset.sum_congr rfl fun k _ => congrArg₂ (· * ·)
        (congrFun (shapeCast_self agg _) (ix2 p k))
        (transpose_apply [1, 0] _ _ (ix2 k q) (ix2 q k) (fun b => match b with
          | ⟨0, _⟩ => rfl
          | ⟨1, _⟩ => rfl))))
  · exact ((broadcastTo_1b_ab_apply _ _ p q).trans (congrFun (shapeCast_self relb _) _))
  · exact ((matmul_cv_apply _ _ p q).trans (Finset.sum_congr rfl fun k _ => congrArg₂ (· * ·)
        (congrFun (shapeCast_self xdst _) (ix2 p k))
        (transpose_apply [1, 0] _ _ (ix2 k q) (ix2 q k) (fun b => match b with
          | ⟨0, _⟩ => rfl
          | ⟨1, _⟩ => rfl))))

end Cert.KernelIdeal.Hand

end
-- ==== Proof.Region3.lean ====
import proofs.«155566_j32839319945244_1_alg».proof.Proof.KernelIdealFrameP
import proofs.«155566_j32839319945244_1_alg».proof.Proof.PayConv
import proofs.«155566_j32839319945244_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! Region 3, a graph convolution over row blocks. Point `t` of the 100-point grid reads rows `2000·t … 2000·t + 1999` of the
aggregated neighbour features and of the nodes' own features, the two whole weights and the whole bias row, and writes the
same rows of the result; the 100 row blocks tile the result array, so after the region it holds `Spec.conv` of the arrays
the region found. -/

theorem hz3 : (![0, 0] : Fin 2 → Nat) = fun _ => 0 := funext fun a => by fin_cases a <;> rfl

/-- The printed index maps over the grid: the row windows move with the point, the weight and bias windows stay. -/
theorem idx_facts3 : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- The aggregate's window at point `t` is rows `2000·t + ·` of its array. -/
theorem iblk3_0_apply (c : Dev nD) (t : Fin cfg3.N) (p : Fin 2000) (k : Fin 256) (r : Fin 200000) (hr : r.val = 2000 * t.val + p.val) :
    (iblk3 V c 0 t : Vec Ideal S2000x256 .f32) (ix2 p k) = (V c main_v35 : S200000x256.Idx → Ideal .f32) (ix2 r k) := by
  obtain ⟨⟨e0, e1⟩, -⟩ := idx_facts3 t
  unfold iblk3
  rw [View.read_apply]
  show V c main_v35 _ = V c main_v35 _
  congr 1
  funext a
  apply Fin.ext
  match a with
  | ⟨0, _⟩ => show win3_0.index t 0 * 2000 + 1 * p.val = r.val; rw [e0, hr]; omega
  | ⟨1, _⟩ => show win3_0.index t 1 * 256 + 1 * k.val = k.val; rw [e1]; omega

/-- The node features' window at point `t` is rows `2000·t + ·` of its array. -/
theorem iblk3_1_apply (c : Dev nD) (t : Fin cfg3.N) (p : Fin 2000) (k : Fin 256) (r : Fin 200000) (hr : r.val = 2000 * t.val + p.val) :
    (iblk3 V c 1 t : Vec Ideal S2000x256 .f32) (ix2 p k) = (V c main_v13 : S200000x256.Idx → Ideal .f32) (ix2 r k) := by
  obtain ⟨-, ⟨e0, e1⟩, -⟩ := idx_facts3 t
  unfold iblk3
  rw [View.read_apply]
  show V c main_v13 _ = V c main_v13 _
  congr 1
  funext a
  apply Fin.ext
  match a with
  | ⟨0, _⟩ => show win3_1.index t 0 * 2000 + 1 * p.val = r.val; rw [e0, hr]; omega
  | ⟨1, _⟩ => show win3_1.index t 1 * 256 + 1 * k.val = k.val; rw [e1]; omega

/-- The neighbour weight's window is the whole weight. -/
theorem iblk3_2_apply (c : Dev nD) (t : Fin cfg3.N) (o : Fin 128) (k : Fin 256) :
    (iblk3 V c 2 t : Vec Ideal S128x256 .f32) (ix2 o k) = (V c main_arg10 : S128x256.Idx → Ideal .f32) (ix2 o k) := by
  obtain ⟨-, -, ⟨e0, e1⟩, -⟩ := idx_facts3 t
  unfold iblk3
  rw [View.read_apply]
  show V c main_arg10 _ = V c main_arg10 _
  congr 1
  funext a
  apply Fin.ext
  match a with
  | ⟨0, _⟩ => show win3_2.index t 0 * 128 + 1 * o.val = o.val; rw [e0]; omega
  | ⟨1, _⟩ => show win3_2.index t 1 * 256 + 1 * k.val = k.val; rw [e1]; omega

/-- The bias window is the whole bias row. -/
theorem iblk3_3_apply (c : Dev nD) (t : Fin cfg3.N) (o : Fin 128) :
    (iblk3 V c 3 t : Vec Ideal S1x128 .f32) (ix2 (0 : Fin 1) o) = (V c main_v36 : S1x128.Idx → Ideal .f32) (ix2 (0 : Fin 1) o) := by
  obtain ⟨-, -, -, ⟨e0, e1⟩, -⟩ := idx_facts3 t
  unfold iblk3
  rw [View.read_apply]
  show V c main_v36 _ = V c main_v36 _
  congr 1
  funext a
  apply Fin.ext
  match a with
  | ⟨0, _⟩ => show win3_3.index t 0 * 1 + 1 * 0 = 0; rw [e0]
  | ⟨1, _⟩ => show win3_3.index t 1 * 128 + 1 * o.val = o.val; rw [e1]; omega

/-- The root weight's window is the whole weight. -/
theorem iblk3_4_apply (c : Dev nD) (t : Fin cfg3.N) (o : Fin 128) (k : Fin 256) :
    (iblk3 V c 4 t : Vec Ideal S128x256 .f32) (ix2 o k) = (V c main_arg12 : S128x256.Idx → Ideal .f32) (ix2 o k) := by
  obtain ⟨-, -, -, -, ⟨e0, e1⟩, -⟩ := idx_facts3 t
  unfold iblk3
  rw [View.read_apply]
  show V c main_arg12 _ = V c main_arg12 _
  congr 1
  funext a
  apply Fin.ext
  match a with
  | ⟨0, _⟩ => show win3_4.index t 0 * 128 + 1 * o.val = o.val; rw [e0]; omega
  | ⟨1, _⟩ => show win3_4.index t 1 * 256 + 1 * k.val = k.val; rw [e1]; omega

/-- Where the output window's block at point `t` sits in the result array. -/
theorem oblk3_emb (t : Fin cfg3.N) (p : Fin 2000) (q : Fin 128) (r : Fin 200000) (hr : r.val = 2000 * t.val + p.val) :
    ((cfg3.win 5).blk t).view.emb (ix2 p q) = (ix2 r q : S200000x128.Idx) := by
  obtain ⟨-, -, -, -, -, ⟨e0, e1⟩⟩ := idx_facts3 t
  funext a
  apply Fin.ext
  match a with
  | ⟨0, _⟩ => show win3_5.index t 0 * 2000 + 1 * p.val = r.val; rw [e0, hr]; omega
  | ⟨1, _⟩ => show win3_5.index t 1 * 128 + 1 * q.val = q.val; rw [e1]; omega

/-- What point `t` writes back is its block of `Spec.conv` of the entry arrays. -/
theorem flushed3_eq (c : Dev nD) (t : Fin cfg3.N) :
    (dat3 V c).flushed 5 t = ((cfg3.win 5).blk t).view.read (Elt Ideal)
      (Spec.conv (V c main_v35) (V c main_v13) (V c main_arg10) (V c main_v36) (V c main_arg12)) := by
  show (cfg3.win 5).cut (grid3.coords t) ((dat3 V c).after 5 t) = _
  rw [after3_5]
  unfold out3_5
  rw [View.canon_unit_zero hz3]
  simp only [View.ld_unit_zero (S := S2000x256) hz3, View.ld_unit_zero (S := S128x256) hz3, View.ld_unit_zero (S := S1x128) hz3]
  funext j
  obtain ⟨p, q, rfl⟩ : ∃ (p : Fin 2000) (q : Fin 128), j = ix2 p q := ⟨j 0, j 1, eq_ix2 j⟩
  have ht : 2000 * t.val + p.val < 200000 := by
    have h1 : t.val < 100 := lt_of_lt_of_eq t.isLt N_3
    have h2 := p.isLt
    omega
  refine (k3_pay1_apply (iblk3 V c 0 t) (iblk3 V c 1 t) (iblk3 V c 2 t) (iblk3 V c 4 t) (iblk3 V c 3 t) p q).trans ?_
  rw [View.read_apply, oblk3_emb t p q ⟨2000 * t.val + p.val, ht⟩ rfl, Spec.conv_apply]
  simp only [fun k => iblk3_0_apply V c t p k ⟨2000 * t.val + p.val, ht⟩ rfl, fun k => iblk3_1_apply V c t p k ⟨2000 * t.val + p.val, ht⟩ rfl,
    iblk3_2_apply V c t, iblk3_3_apply V c t, iblk3_4_apply V c t]
  rfl

/-- An index of the result array is in point `t`'s block iff its row is among the block's rows. -/
theorem mem_blk3 (t : Fin cfg3.N) (i : S200000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v37).slice (win3_5.rect t)).set ↔ _
  rw [View.set_slice_whole, Rect.mem_set_unit]
  exact Iff.rfl

/-- Every row of the result is in the block of the point `row / 2000`. -/
theorem cover3 (i : S200000x128.Idx) : ∃ t : Fin cfg3.N, (cfg3.win 5).flush t = true ∧ i ∈ ((cfg3.win 5).blk t).view.set := by
  have hi0 : (i 0).val < 200000 := (i 0).isLt
  have hi1 : (i 1).val < 128 := (i 1).isLt
  have hN : cfg3.N = 100 := N_3
  refine ⟨⟨(i 0).val / 2000, by rw [hN]; omega⟩, flush3_5 _, ?_⟩
  rw [mem_blk3]
  obtain ⟨-, -, -, -, -, ⟨e0, e1⟩⟩ := idx_facts3 ⟨(i 0).val / 2000, by rw [hN]; omega⟩
  intro a
  match a with
  | ⟨0, _⟩ => show win3_5.index _ (0 : Fin 2) * 2000 ≤ (i 0).val ∧ (i 0).val < win3_5.index _ (0 : Fin 2) * 2000 + 2000; rw [e0]; show (i 0).val / 2000 * 2000 ≤ _ ∧ _ < (i 0).val / 2000 * 2000 + 2000; omega
  | ⟨1, _⟩ => show win3_5.index _ (1 : Fin 2) * 128 ≤ (i 1).val ∧ (i 1).val < win3_5.index _ (1 : Fin 2) * 128 + 128; rw [e1]; omega

/-- After region 3 its result array is `Spec.conv` of the arrays the region found. -/
theorem final3 (c : Dev nD) :
    (dat3 V c).arrAt 5 cfg3.N = Spec.conv (V c main_v35) (V c main_v13) (V c main_arg10) (V c main_v36) (V c main_arg12) :=
  (dat3 V c).arrAt_eq_of_cover 5 _ (fun t _ => flushed3_eq V c t) cover3

end Cert.KernelIdeal.Hand

end
-- ==== Proof.Region4.lean ====
import proofs.«155566_j32839319945244_1_alg».proof.Proof.KernelIdealFrameP
import proofs.«155566_j32839319945244_1_alg».proof.Proof.PayConv
import proofs.«155566_j32839319945244_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! Region 4, a graph convolution over row blocks. Point `t` of the 50-point grid reads rows `2000·t … 2000·t + 1999` of the
aggregated neighbour features and of the nodes' own features, the two whole weights and the whole bias row, and writes the
same rows of the result; the 50 row blocks tile the result array, so after the region it holds `Spec.conv` of the arrays
the region found. -/

theorem hz4 : (![0, 0] : Fin 2 → Nat) = fun _ => 0 := funext fun a => by fin_cases a <;> rfl

/-- The printed index maps over the grid: the row windows move with the point, the weight and bias windows stay. -/
theorem idx_facts4 : ∀ t : Fin cfg4.N, (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0) :=
  (by decide +kernel : ∀ t : Fin grid4.N, _)

/-- The aggregate's window at point `t` is rows `2000·t + ·` of its array. -/
theorem iblk4_0_apply (c : Dev nD) (t : Fin cfg4.N) (p : Fin 2000) (k : Fin 256) (r : Fin 100000) (hr : r.val = 2000 * t.val + p.val) :
    (iblk4 V c 0 t : Vec Ideal S2000x256 .f32) (ix2 p k) = (V c main_v47 : S100000x256.Idx → Ideal .f32) (ix2 r k) := by
  obtain ⟨⟨e0, e1⟩, -⟩ := idx_facts4 t
  unfold iblk4
  rw [View.read_apply]
  show V c main_v47 _ = V c main_v47 _
  congr 1
  funext a
  apply Fin.ext
  match a with
  | ⟨0, _⟩ => show win4_0.index t 0 * 2000 + 1 * p.val = r.val; rw [e0, hr]; omega
  | ⟨1, _⟩ => show win4_0.index t 1 * 256 + 1 * k.val = k.val; rw [e1]; omega

/-- The node features' window at point `t` is rows `2000·t + ·` of its array. -/
theorem iblk4_1_apply (c : Dev nD) (t : Fin cfg4.N) (p : Fin 2000) (k : Fin 256) (r : Fin 100000) (hr : r.val = 2000 * t.val + p.val) :
    (iblk4 V c 1 t : Vec Ideal S2000x256 .f32) (ix2 p k) = (V c main_v25 : S100000x256.Idx → Ideal .f32) (ix2 r k) := by
  obtain ⟨-, ⟨e0, e1⟩, -⟩ := idx_facts4 t
  unfold iblk4
  rw [View.read_apply]
  show V c main_v25 _ = V c main_v25 _
  congr 1
  funext a
  apply Fin.ext
  match a with
  | ⟨0, _⟩ => show win4_1.index t 0 * 2000 + 1 * p.val = r.val; rw [e0, hr]; omega
  | ⟨1, _⟩ => show win4_1.index t 1 * 256 + 1 * k.val = k.val; rw [e1]; omega

/-- The neighbour weight's window is the whole weight. -/
theorem iblk4_2_apply (c : Dev nD) (t : Fin cfg4.N) (o : Fin 128) (k : Fin 256) :
    (iblk4 V c 2 t : Vec Ideal S128x256 .f32) (ix2 o k) = (V c main_arg13 : S128x256.Idx → Ideal .f32) (ix2 o k) := by
  obtain ⟨-, -, ⟨e0, e1⟩, -⟩ := idx_facts4 t
  unfold iblk4
  rw [View.read_apply]
  show V c main_arg13 _ = V c main_arg13 _
  congr 1
  funext a
  apply Fin.ext
  match a with
  | ⟨0, _⟩ => show win4_2.index t 0 * 128 + 1 * o.val = o.val; rw [e0]; omega
  | ⟨1, _⟩ => show win4_2.index t 1 * 256 + 1 * k.val = k.val; rw [e1]; omega

/-- The bias window is the whole bias row. -/
theorem iblk4_3_apply (c : Dev nD) (t : Fin cfg4.N) (o : Fin 128) :
    (iblk4 V c 3 t : Vec Ideal S1x128 .f32) (ix2 (0 : Fin 1) o) = (V c main_v48 : S1x128.Idx → Ideal .f32) (ix2 (0 : Fin 1) o) := by
  obtain ⟨-, -, -, ⟨e0, e1⟩, -⟩ := idx_facts4 t
  unfold iblk4
  rw [View.read_apply]
  show V c main_v48 _ = V c main_v48 _
  congr 1
  funext a
  apply Fin.ext
  match a with
  | ⟨0, _⟩ => show win4_3.index t 0 * 1 + 1 * 0 = 0; rw [e0]
  | ⟨1, _⟩ => show win4_3.index t 1 * 128 + 1 * o.val = o.val; rw [e1]; omega

/-- The root weight's window is the whole weight. -/
theorem iblk4_4_apply (c : Dev nD) (t : Fin cfg4.N) (o : Fin 128) (k : Fin 256) :
    (iblk4 V c 4 t : Vec Ideal S128x256 .f32) (ix2 o k) = (V c main_arg15 : S128x256.Idx → Ideal .f32) (ix2 o k) := by
  obtain ⟨-, -, -, -, ⟨e0, e1⟩, -⟩ := idx_facts4 t
  unfold iblk4
  rw [View.read_apply]
  show V c main_arg15 _ = V c main_arg15 _
  congr 1
  funext a
  apply Fin.ext
  match a with
  | ⟨0, _⟩ => show win4_4.index t 0 * 128 + 1 * o.val = o.val; rw [e0]; omega
  | ⟨1, _⟩ => show win4_4.index t 1 * 256 + 1 * k.val = k.val; rw [e1]; omega

/-- Where the output window's block at point `t` sits in the result array. -/
theorem oblk4_emb (t : Fin cfg4.N) (p : Fin 2000) (q : Fin 128) (r : Fin 100000) (hr : r.val = 2000 * t.val + p.val) :
    ((cfg4.win 5).blk t).view.emb (ix2 p q) = (ix2 r q : S100000x128.Idx) := by
  obtain ⟨-, -, -, -, -, ⟨e0, e1⟩⟩ := idx_facts4 t
  funext a
  apply Fin.ext
  match a with
  | ⟨0, _⟩ => show win4_5.index t 0 * 2000 + 1 * p.val = r.val; rw [e0, hr]; omega
  | ⟨1, _⟩ => show win4_5.index t 1 * 128 + 1 * q.val = q.val; rw [e1]; omega

/-- What point `t` writes back is its block of `Spec.conv` of the entry arrays. -/
theorem flushed4_eq (c : Dev nD) (t : Fin cfg4.N) :
    (dat4 V c).flushed 5 t = ((cfg4.win 5).blk t).view.read (Elt Ideal)
      (Spec.conv (V c main_v47) (V c main_v25) (V c main_arg13) (V c main_v48) (V c main_arg15)) := by
  show (cfg4.win 5).cut (grid4.coords t) ((dat4 V c).after 5 t) = _
  rw [after4_5]
  unfold out4_5
  rw [View.canon_unit_zero hz4]
  simp only [View.ld_unit_zero (S := S2000x256) hz4, View.ld_unit_zero (S := S128x256) hz4, View.ld_unit_zero (S := S1x128) hz4]
  funext j
  obtain ⟨p, q, rfl⟩ : ∃ (p : Fin 2000) (q : Fin 128), j = ix2 p q := ⟨j 0, j 1, eq_ix2 j⟩
  have ht : 2000 * t.val + p.val < 100000 := by
    have h1 : t.val < 50 := lt_of_lt_of_eq t.isLt N_4
    have h2 := p.isLt
    omega
  refine (k4_pay1_apply (iblk4 V c 0 t) (iblk4 V c 1 t) (iblk4 V c 2 t) (iblk4 V c 4 t) (iblk4 V c 3 t) p q).trans ?_
  rw [View.read_apply, oblk4_emb t p q ⟨2000 * t.val + p.val, ht⟩ rfl, Spec.conv_apply]
  simp only [fun k => iblk4_0_apply V c t p k ⟨2000 * t.val + p.val, ht⟩ rfl, fun k => iblk4_1_apply V c t p k ⟨2000 * t.val + p.val, ht⟩ rfl,
    iblk4_2_apply V c t, iblk4_3_apply V c t, iblk4_4_apply V c t]
  rfl

/-- An index of the result array is in point `t`'s block iff its row is among the block's rows. -/
theorem mem_blk4 (t : Fin cfg4.N) (i : S100000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v49).slice (win4_5.rect t)).set ↔ _
  rw [View.set_slice_whole, Rect.mem_set_unit]
  exact Iff.rfl

/-- Every row of the result is in the block of the point `row / 2000`. -/
theorem cover4 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 50 := N_4
  refine ⟨⟨(i 0).val / 2000, by rw [hN]; omega⟩, flush4_5 _, ?_⟩
  rw [mem_blk4]
  obtain ⟨-, -, -, -, -, ⟨e0, e1⟩⟩ := idx_facts4 ⟨(i 0).val / 2000, by rw [hN]; omega⟩
  intro a
  match a with
  | ⟨0, _⟩ => show win4_5.index _ (0 : Fin 2) * 2000 ≤ (i 0).val ∧ (i 0).val < win4_5.index _ (0 : Fin 2) * 2000 + 2000; rw [e0]; show (i 0).val / 2000 * 2000 ≤ _ ∧ _ < (i 0).val / 2000 * 2000 + 2000; omega
  | ⟨1, _⟩ => show win4_5.index _ (1 : Fin 2) * 128 ≤ (i 1).val ∧ (i 1).val < win4_5.index _ (1 : Fin 2) * 128 + 128; rw [e1]; omega

/-- After region 4 its result array is `Spec.conv` of the arrays the region found. -/
theorem final4 (c : Dev nD) :
    (dat4 V c).arrAt 5 cfg4.N = Spec.conv (V c main_v47) (V c main_v25) (V c main_arg13) (V c main_v48) (V c main_arg15) :=
  (dat4 V c).arrAt_eq_of_cover 5 _ (fun t _ => flushed4_eq V c t) cover4

end Cert.KernelIdeal.Hand

end
-- ==== Proof.Net.lean ====
import proofs.«155566_j32839319945244_1_alg».proof.Proof.Gen.KernelIdeal
import proofs.«155566_j32839319945244_1_alg».proof.Proof.Gen.ReferenceIdeal
import proofs.«155566_j32839319945244_1_alg».proof.Proof.Spec

/-! The network both programs compute, as ONE composition over the layer functions of `Cert.Spec`.

Both programs form the four neighbour aggregations with the same host operations — a gather of the source rows
(negative indices wrapped) scattered-and-added into a zero array at the destination rows — so each aggregation is
carried as one function of its operands and never opened. Each printed program spells the operations' dimension
records in its own namespace; the two spellings are the same function. -/

noncomputable section

namespace Cert.Net

open Idealize.ShloMosaic

variable {F : FTy → Type} [FloatOps F]

section RRecords
open Cert.ReferenceIdeal Cert.ReferenceIdeal.Facts₀

/-- user → issue at width 128: row `d` collects the user rows `xu[src e]` over the edges `e` with `dst e = d`
    (a negative source index wrapped by the row count first). -/
def aggUI128R (xu : (⟨S100000x128, .f32⟩ : BufTy).Contents (Elt F)) (src dst : (⟨S600000, .i32⟩ : BufTy).Contents (Elt F)) :
    (⟨S200000x128, .f32⟩ : BufTy).Contents (Elt F) :=
  Host.scatterAdd scatter_S200000x128_S600000x1_S600000x128_1_0_0_1
    (broadcastInDim S200000x128 ![] bcast_S_S200000x128 (constant S_ .f32 0x00000000#32))
    (broadcastInDim S600000x1 ![0] bcast_S600000_S600000x1_0 dst)
    (Host.gather gather_S100000x128_S600000x1_S600000x128_1_0_n_n_0_1_1128 xu
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- issue → user at width 128. -/
def aggIU128R (xi : (⟨S200000x128, .f32⟩ : BufTy).Contents (Elt F)) (src dst : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 src)
    (Host.gather gather_S200000x128_S600000x1_S600000x128_1_0_n_n_0_1_1128 xi
      (broadcastInDim S600000x1 ![0] bcast_S600000_S600000x1_0
        (select (cmpi .slt dst (broadcastInDim S600000 ![] bcast_S_S600000 (constantI S_ 32 0#32)))
          (addi dst (broadcastInDim S600000 ![] bcast_S_S600000 (constantI S_ 32 200000#32))) dst)))

/-- user → issue at width 256. -/
def aggUI256R (hu : (⟨S100000x256, .f32⟩ : BufTy).Contents (Elt F)) (src dst : (⟨S600000, .i32⟩ : BufTy).Contents (Elt F)) :
    (⟨S200000x256, .f32⟩ : BufTy).Contents (Elt F) :=
  Host.scatterAdd scatter_S200000x256_S600000x1_S600000x256_1_0_0_1
    (broadcastInDim S200000x256 ![] bcast_S_S200000x256 (constant S_ .f32 0x00000000#32))
    (broadcastInDim S600000x1 ![0] bcast_S600000_S600000x1_0 dst)
    (Host.gather gather_S100000x256_S600000x1_S600000x256_1_0_n_n_0_1_1256 hu
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- issue → user at width 256. -/
def aggIU256R (hi : (⟨S200000x256, .f32⟩ : BufTy).Contents (Elt F)) (src dst : (⟨S600000, .i32⟩ : BufTy).Contents (Elt F)) :
    (⟨S100000x256, .f32⟩ : BufTy).Contents (Elt F) :=
  Host.scatterAdd scatter_S100000x256_S600000x1_S600000x256_1_0_0_1
    (broadcastInDim S100000x256 ![] bcast_S_S100000x256 (constant S_ .f32 0x00000000#32))
    (broadcastInDim S600000x1 ![0] bcast_S600000_S600000x1_0 src)
    (Host.gather gather_S200000x256_S600000x1_S600000x256_1_0_n_n_0_1_1256 hi
      (broadcastInDim S600000x1 ![0] bcast_S600000_S600000x1_0
        (select (cmpi .slt dst (broadcastInDim S600000 ![] bcast_S_S600000 (constantI S_ 32 0#32)))
          (addi dst (broadcastInDim S600000 ![] bcast_S_S600000 (constantI S_ 32 200000#32))) dst)))

end RRecords

section KRecords
open Cert.KernelIdeal Cert.KernelIdeal.Facts₀

/-- user → issue at width 128: row `d` collects the user rows `xu[src e]` over the edges `e` with `dst e = d`
    (a negative source index wrapped by the row count first). -/
def aggUI128K (xu : (⟨S100000x128, .f32⟩ : BufTy).Contents (Elt F)) (src dst : (⟨S600000, .i32⟩ : BufTy).Contents (Elt F)) :
    (⟨S200000x128, .f32⟩ : BufTy).Contents (Elt F) :=
  Host.scatterAdd scatter_S200000x128_S600000x1_S600000x128_1_0_0_1
    (broadcastInDim S200000x128 ![] bcast_S_S200000x128 (constant S_ .f32 0x00000000#32))
    (broadcastInDim S600000x1 ![0] bcast_S600000_S600000x1_0 dst)
    (Host.gather gather_S100000x128_S600000x1_S600000x128_1_0_n_n_0_1_1128 xu
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- issue → user at width 128. -/
def aggIU128K (xi : (⟨S200000x128, .f32⟩ : BufTy).Contents (Elt F)) (src dst : (⟨S600000, .i32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 src)
    (Host.gather gather_S200000x128_S600000x1_S600000x128_1_0_n_n_0_1_1128 xi
      (broadcastInDim S600000x1 ![0] bcast_S600000_S600000x1_0
        (select (cmpi .slt dst (broadcastInDim S600000 ![] bcast_S_S600000 (constantI S_ 32 0#32)))
          (addi dst (broadcastInDim S600000 ![] bcast_S_S600000 (constantI S_ 32 200000#32))) dst)))

/-- user → issue at width 256. -/
def aggUI256K (hu : (⟨S100000x256, .f32⟩ : BufTy).Contents (Elt F)) (src dst : (⟨S600000, .i32⟩ : BufTy).Contents (Elt F)) :
    (⟨S200000x256, .f32⟩ : BufTy).Contents (Elt F) :=
  Host.scatterAdd scatter_S200000x256_S600000x1_S600000x256_1_0_0_1
    (broadcastInDim S200000x256 ![] bcast_S_S200000x256 (constant S_ .f32 0x00000000#32))
    (broadcastInDim S600000x1 ![0] bcast_S600000_S600000x1_0 dst)
    (Host.gather gather_S100000x256_S600000x1_S600000x256_1_0_n_n_0_1_1256 hu
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- issue → user at width 256. -/
def aggIU256K (hi : (⟨S200000x256, .f32⟩ : BufTy).Contents (Elt F)) (src dst : (⟨S600000, .i32⟩ : BufTy).Contents (Elt F)) :
    (⟨S100000x256, .f32⟩ : BufTy).Contents (Elt F) :=
  Host.scatterAdd scatter_S100000x256_S600000x1_S600000x256_1_0_0_1
    (broadcastInDim S100000x256 ![] bcast_S_S100000x256 (constant S_ .f32 0x00000000#32))
    (broadcastInDim S600000x1 ![0] bcast_S600000_S600000x1_0 src)
    (Host.gather gather_S200000x256_S600000x1_S600000x256_1_0_n_n_0_1_1256 hi
      (broadcastInDim S600000x1 ![0] bcast_S600000_S600000x1_0
        (select (cmpi .slt dst (broadcastInDim S600000 ![] bcast_S_S600000 (constantI S_ 32 0#32)))
          (addi dst (broadcastInDim S600000 ![] bcast_S_S600000 (constantI S_ 32 200000#32))) dst)))

end KRecords

theorem aggUI128_eq : @aggUI128K F _ = @aggUI128R F _ := rfl
theorem aggIU128_eq : @aggIU128K F _ = @aggIU128R F _ := rfl
theorem aggUI256_eq : @aggUI256K F _ = @aggUI256R F _ := rfl
theorem aggIU256_eq : @aggIU256K F _ = @aggIU256R F _ := rfl

end Cert.Net

end
-- ==== Proof.Model.lean ====
import proofs.«155566_j32839319945244_1_alg».proof.Proof.Net

/-! The two results as one composition of the layer functions over the eighteen argument arrays:
`xi = affine x_issue`; the first convolutions `hIssue`, `hUser` (clamped at zero) read `xi`, `x_user` and the
aggregations of each other's inputs; the second convolutions read `hIssue`, `hUser` and the aggregations of those. -/

noncomputable section

namespace Cert.Net

open Idealize.ShloMosaic Cert.ReferenceIdeal

/-- The eighteen argument arrays, in @main's order. -/
structure Args where
  xu : (⟨S100000x128, .f32⟩ : BufTy).Contents (Elt Ideal)
  xis : (⟨S200000x128, .f32⟩ : BufTy).Contents (Elt Ideal)
  Wm : (⟨S128x128, .f32⟩ : BufTy).Contents (Elt Ideal)
  bm : (⟨S128, .f32⟩ : BufTy).Contents (Elt Ideal)
  W4 : (⟨S256x128, .f32⟩ : BufTy).Contents (Elt Ideal)
  b5 : (⟨S256, .f32⟩ : BufTy).Contents (Elt Ideal)
  W6 : (⟨S256x128, .f32⟩ : BufTy).Contents (Elt Ideal)
  W7 : (⟨S256x128, .f32⟩ : BufTy).Contents (Elt Ideal)
  b8 : (⟨S256, .f32⟩ : BufTy).Contents (Elt Ideal)
  W9 : (⟨S256x128, .f32⟩ : BufTy).Contents (Elt Ideal)
  W10 : (⟨S128x256, .f32⟩ : BufTy).Contents (Elt Ideal)
  b11 : (⟨S128, .f32⟩ : BufTy).Contents (Elt Ideal)
  W12 : (⟨S128x256, .f32⟩ : BufTy).Contents (Elt Ideal)
  W13 : (⟨S128x256, .f32⟩ : BufTy).Contents (Elt Ideal)
  b14 : (⟨S128, .f32⟩ : BufTy).Contents (Elt Ideal)
  W15 : (⟨S128x256, .f32⟩ : BufTy).Contents (Elt Ideal)
  src : (⟨S600000, .i32⟩ : BufTy).Contents (Elt Ideal)
  dst : (⟨S600000, .i32⟩ : BufTy).Contents (Elt Ideal)

/-- The issue features after their own affine layer. -/
def xi (a : Args) : (⟨S200000x128, .f32⟩ : BufTy).Contents (Elt Ideal) :=
  Spec.affine a.xis a.Wm (Spec.rowOf a.bm)

/-- First convolution, user → issue, clamped at zero. -/
def hIssue (a : Args) : (⟨S200000x256, .f32⟩ : BufTy).Contents (Elt Ideal) :=
  Spec.convRelu (aggUI128R a.xu a.src a.dst) (xi a) a.W4 (Spec.rowOf a.b5) a.W6

/-- First convolution, issue → user, clamped at zero. -/
def hUser (a : Args) : (⟨S100000x256, .f32⟩ : BufTy).Contents (Elt Ideal) :=
  Spec.convRelu (aggIU128R (xi a) a.src a.dst) a.xu a.W7 (Spec.rowOf a.b8) a.W9

/-- Second convolution, user → issue: the first result. -/
def outIssue (a : Args) : (⟨S200000x128, .f32⟩ : BufTy).Contents (Elt Ideal) :=
  Spec.conv (aggUI256R (hUser a) a.src a.dst) (hIssue a) a.W10 (Spec.rowOf a.b11) a.W12

/-- Second convolution, issue → user: the second result. -/
def outUser (a : Args) : (⟨S100000x128, .f32⟩ : BufTy).Contents (Elt Ideal) :=
  Spec.conv (aggIU256R (hIssue a) a.src a.dst) (hUser a) a.W13 (Spec.rowOf a.b14) a.W15

/-- The reference's arguments on core `c`. -/
def argsR (m : (ℓ : Loc nD τ sig) → Buf (Elt Ideal) ℓ) (c : Dev nD) : Args where
  xu := m ((c.tc : Thread nD τ).loc main_arg0)
  xis := m ((c.tc : Thread nD τ).loc main_arg1)
  Wm := m ((c.tc : Thread nD τ).loc main_arg2)
  bm := m ((c.tc : Thread nD τ).loc main_arg3)
  W4 := m ((c.tc : Thread nD τ).loc main_arg4)
  b5 := m ((c.tc : Thread nD τ).loc main_arg5)
  W6 := m ((c.tc : Thread nD τ).loc main_arg6)
  W7 := m ((c.tc : Thread nD τ).loc main_arg7)
  b8 := m ((c.tc : Thread nD τ).loc main_arg8)
  W9 := m ((c.tc : Thread nD τ).loc main_arg9)
  W10 := m ((c.tc : Thread nD τ).loc main_arg10)
  b11 := m ((c.tc : Thread nD τ).loc main_arg11)
  W12 := m ((c.tc : Thread nD τ).loc main_arg12)
  W13 := m ((c.tc : Thread nD τ).loc main_arg13)
  b14 := m ((c.tc : Thread nD τ).loc main_arg14)
  W15 := m ((c.tc : Thread nD τ).loc main_arg15)
  src := m ((c.tc : Thread nD τ).loc main_arg16)
  dst := m ((c.tc : Thread nD τ).loc main_arg17)

/-- The kernel program's arguments on core `c`. -/
def argsK (m : (ℓ : Loc Cert.KernelIdeal.nD Cert.KernelIdeal.τ Cert.KernelIdeal.sig) → Buf (Elt Ideal) ℓ) (c : Dev Cert.KernelIdeal.nD) : Args where
  xu := m ((c.tc : Thread Cert.KernelIdeal.nD Cert.KernelIdeal.τ).loc Cert.KernelIdeal.main_arg0)
  xis := m ((c.tc : Thread Cert.KernelIdeal.nD Cert.KernelIdeal.τ).loc Cert.KernelIdeal.main_arg1)
  Wm := m ((c.tc : Thread Cert.KernelIdeal.nD Cert.KernelIdeal.τ).loc Cert.KernelIdeal.main_arg2)
  bm := m ((c.tc : Thread Cert.KernelIdeal.nD Cert.KernelIdeal.τ).loc Cert.KernelIdeal.main_arg3)
  W4 := m ((c.tc : Thread Cert.KernelIdeal.nD Cert.KernelIdeal.τ).loc Cert.KernelIdeal.main_arg4)
  b5 := m ((c.tc : Thread Cert.KernelIdeal.nD Cert.KernelIdeal.τ).loc Cert.KernelIdeal.main_arg5)
  W6 := m ((c.tc : Thread Cert.KernelIdeal.nD Cert.KernelIdeal.τ).loc Cert.KernelIdeal.main_arg6)
  W7 := m ((c.tc : Thread Cert.KernelIdeal.nD Cert.KernelIdeal.τ).loc Cert.KernelIdeal.main_arg7)
  b8 := m ((c.tc : Thread Cert.KernelIdeal.nD Cert.KernelIdeal.τ).loc Cert.KernelIdeal.main_arg8)
  W9 := m ((c.tc : Thread Cert.KernelIdeal.nD Cert.KernelIdeal.τ).loc Cert.KernelIdeal.main_arg9)
  W10 := m ((c.tc : Thread Cert.KernelIdeal.nD Cert.KernelIdeal.τ).loc Cert.KernelIdeal.main_arg10)
  b11 := m ((c.tc : Thread Cert.KernelIdeal.nD Cert.KernelIdeal.τ).loc Cert.KernelIdeal.main_arg11)
  W12 := m ((c.tc : Thread Cert.KernelIdeal.nD Cert.KernelIdeal.τ).loc Cert.KernelIdeal.main_arg12)
  W13 := m ((c.tc : Thread Cert.KernelIdeal.nD Cert.KernelIdeal.τ).loc Cert.KernelIdeal.main_arg13)
  b14 := m ((c.tc : Thread Cert.KernelIdeal.nD Cert.KernelIdeal.τ).loc Cert.KernelIdeal.main_arg14)
  W15 := m ((c.tc : Thread Cert.KernelIdeal.nD Cert.KernelIdeal.τ).loc Cert.KernelIdeal.main_arg15)
  src := m ((c.tc : Thread Cert.KernelIdeal.nD Cert.KernelIdeal.τ).loc Cert.KernelIdeal.main_arg16)
  dst := m ((c.tc : Thread Cert.KernelIdeal.nD Cert.KernelIdeal.τ).loc Cert.KernelIdeal.main_arg17)

end Cert.Net

end
-- ==== Proof.KChain.lean ====
import proofs.«155566_j32839319945244_1_alg».proof.Proof.KernelIdealRunP
import proofs.«155566_j32839319945244_1_alg».proof.Proof.Region0
import proofs.«155566_j32839319945244_1_alg».proof.Proof.Region1
import proofs.«155566_j32839319945244_1_alg».proof.Proof.Region2
import proofs.«155566_j32839319945244_1_alg».proof.Proof.Region3
import proofs.«155566_j32839319945244_1_alg».proof.Proof.Region4
import proofs.«155566_j32839319945244_1_alg».proof.Proof.Model
import Idealize.ShloMosaic.Lib.ValueLayout
import Idealize.ShloMosaic.Lib.StableHlo.Run

/-! The kernel program's two results as the network of `Cert.Net` over its arguments.

@main alternates stretches of host operations with the five regions; the buffers' contents at each boundary are a fold
from the launch memory. Read back through that fold: an argument is never written, so at every boundary it still holds its
launch contents; a bias row is its vector reshaped; an aggregation is the gather-and-scatter chain of what the boundary
before it holds; and each region leaves in its result array the layer function of the arrays it found (`final0 … final4`).
So the arrays name, one after another, `xi`, `hIssue`, `hUser`, `outIssue`, `outUser`. -/

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-! ## One step back through the fold -/

/-- Back through a host stretch none of whose operations writes the buffer. -/
local macro "bh" : tactic => `(tactic| refine (StableHlo.after_of_forall_not_mem _ _ (List.forall_iff_forall_mem.mp (by
    simp only [hostOps0, hostOps1, hostOps2, hostOps3, hostOps4, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))).trans ?_)
/-- Back through a region none of whose windows is over the buffer. -/
local macro "br2" : tactic => `(tactic| refine (W2_of_ne _ _ _ _ (by decide)).trans ?_)
local macro "br4" : tactic => `(tactic| refine (W4_of_ne _ _ _ _ (by decide)).trans ?_)
local macro "br6" : tactic => `(tactic| refine (W6_of_ne _ _ _ _ (by decide)).trans ?_)
local macro "br8" : tactic => `(tactic| refine (W8_of_ne _ _ _ _ (by decide)).trans ?_)
local macro "br10" : tactic => `(tactic| refine (W10_of_ne _ _ _ _ (by decide)).trans ?_)
/-- All the way back to the launch memory from boundary `j`, for a buffer nothing on the way writes. -/
local macro "from1" : tactic => `(tactic| (bh; rfl))
local macro "from2" : tactic => `(tactic| (br2; from1))
local macro "from3" : tactic => `(tactic| (bh; from2))
local macro "from4" : tactic => `(tactic| (br4; from3))
local macro "from5" : tactic => `(tactic| (bh; from4))
local macro "from6" : tactic => `(tactic| (br6; from5))
local macro "from7" : tactic => `(tactic| (bh; from6))
local macro "from8" : tactic => `(tactic| (br8; from7))
local macro "from9" : tactic => `(tactic| (bh; from8))

/-! ## The arguments at the boundaries where something reads them -/

theorem W1_arg1 (c : Dev nD) : W1 m ρ c (Proc.devRef .tc main_arg1) = m ((c : Thread nD τ).loc main_arg1) := by from1
theorem W1_arg2 (c : Dev nD) : W1 m ρ c (Proc.devRef .tc main_arg2) = m ((c : Thread nD τ).loc main_arg2) := by from1
theorem W2_arg0 (c : Dev nD) : W2 m ρ c (Proc.devRef .tc main_arg0) = m ((c : Thread nD τ).loc main_arg0) := by from2
theorem W2_arg16 (c : Dev nD) : W2 m ρ c (Proc.devRef .tc main_arg16) = m ((c : Thread nD τ).loc main_arg16) := by from2
theorem W2_arg17 (c : Dev nD) : W2 m ρ c (Proc.devRef .tc main_arg17) = m ((c : Thread nD τ).loc main_arg17) := by from2
theorem W2_arg5 (c : Dev nD) : W2 m ρ c (Proc.devRef .tc main_arg5) = m ((c : Thread nD τ).loc main_arg5) := by from2
theorem W3_arg4 (c : Dev nD) : W3 m ρ c (Proc.devRef .tc main_arg4) = m ((c : Thread nD τ).loc main_arg4) := by from3
theorem W3_arg6 (c : Dev nD) : W3 m ρ c (Proc.devRef .tc main_arg6) = m ((c : Thread nD τ).loc main_arg6) := by from3
theorem W4_arg16 (c : Dev nD) : W4 m ρ c (Proc.devRef .tc main_arg16) = m ((c : Thread nD τ).loc main_arg16) := by from4
theorem W4_arg17 (c : Dev nD) : W4 m ρ c (Proc.devRef .tc main_arg17) = m ((c : Thread nD τ).loc main_arg17) := by from4
theorem W4_arg8 (c : Dev nD) : W4 m ρ c (Proc.devRef .tc main_arg8) = m ((c : Thread nD τ).loc main_arg8) := by from4
theorem W5_arg0 (c : Dev nD) : W5 m ρ c (Proc.devRef .tc main_arg0) = m ((c : Thread nD τ).loc main_arg0) := by from5
theorem W5_arg7 (c : Dev nD) : W5 m ρ c (Proc.devRef .tc main_arg7) = m ((c : Thread nD τ).loc main_arg7) := by from5
theorem W5_arg9 (c : Dev nD) : W5 m ρ c (Proc.devRef .tc main_arg9) = m ((c : Thread nD τ).loc main_arg9) := by from5
theorem W6_arg16 (c : Dev nD) : W6 m ρ c (Proc.devRef .tc main_arg16) = m ((c : Thread nD τ).loc main_arg16) := by from6
theorem W6_arg17 (c : Dev nD) : W6 m ρ c (Proc.devRef .tc main_arg17) = m ((c : Thread nD τ).loc main_arg17) := by from6
theorem W6_arg11 (c : Dev nD) : W6 m ρ c (Proc.devRef .tc main_arg11) = m ((c : Thread nD τ).loc main_arg11) := by from6
theorem W7_arg10 (c : Dev nD) : W7 m ρ c (Proc.devRef .tc main_arg10) = m ((c : Thread nD τ).loc main_arg10) := by from7
theorem W7_arg12 (c : Dev nD) : W7 m ρ c (Proc.devRef .tc main_arg12) = m ((c : Thread nD τ).loc main_arg12) := by from7
theorem W8_arg16 (c : Dev nD) : W8 m ρ c (Proc.devRef .tc main_arg16) = m ((c : Thread nD τ).loc main_arg16) := by from8
theorem W8_arg17 (c : Dev nD) : W8 m ρ c (Proc.devRef .tc main_arg17) = m ((c : Thread nD τ).loc main_arg17) := by from8
theorem W8_arg14 (c : Dev nD) : W8 m ρ c (Proc.devRef .tc main_arg14) = m ((c : Thread nD τ).loc main_arg14) := by from8
theorem W9_arg13 (c : Dev nD) : W9 m ρ c (Proc.devRef .tc main_arg13) = m ((c : Thread nD τ).loc main_arg13) := by from9
theorem W9_arg15 (c : Dev nD) : W9 m ρ c (Proc.devRef .tc main_arg15) = m ((c : Thread nD τ).loc main_arg15) := by from9

/-! ## Region 0: the issue features' affine layer -/

theorem V1_x (c : Dev nD) : V1 m ρ c main_arg1 = (Net.argsK m c).xis := W1_arg1 m ρ c
theorem V1_W (c : Dev nD) : V1 m ρ c main_arg2 = (Net.argsK m c).Wm := W1_arg2 m ρ c
/-- The bias row is the bias vector reshaped to one row. -/
theorem V1_b (c : Dev nD) : V1 m ρ c main_v0 = Spec.rowOf (Net.argsK m c).bm := by
  show StableHlo.after hostOps0 (W0 m ρ c) (Proc.devRef .tc main_v0) = _
  dsimp only [hostOps0]
  after_results
  funext j
  obtain ⟨u, q, rfl⟩ : ∃ (u : Fin 1) (q : Fin 128), j = ix2 u q := ⟨j 0, j 1, eq_ix2 j⟩
  exact shapeCast_a_1a_apply _ _ u q

theorem W2_xi (c : Dev nD) : W2 m ρ c (Proc.devRef .tc main_v1) = Net.xi (Net.argsK m c) := by
  refine (W2_arr m ρ c 3).trans ((final0 (V1 m ρ) c).trans ?_)
  rw [V1_x, V1_W, V1_b]
  rfl

/-! ## Region 1: the first convolution on the issue side -/

theorem V3_agg (c : Dev nD) : V3 m ρ c main_v11 = Net.aggUI128R (Net.argsK m c).xu (Net.argsK m c).src (Net.argsK m c).dst := by
  show StableHlo.after hostOps1 (W2 m ρ c) (Proc.devRef .tc main_v11) = _
  dsimp only [hostOps1]
  after_results
  rw [W2_arg0, W2_arg16, W2_arg17]
  exact congrFun (congrFun (congrFun Net.aggUI128_eq _) _) _
theorem V3_xd (c : Dev nD) : V3 m ρ c main_v1 = Net.xi (Net.argsK m c) := by
  bh
  exact W2_xi m ρ c
theorem V3_Wrel (c : Dev nD) : V3 m ρ c main_arg4 = (Net.argsK m c).W4 := W3_arg4 m ρ c
theorem V3_b (c : Dev nD) : V3 m ρ c main_v12 = Spec.rowOf (Net.argsK m c).b5 := by
  show StableHlo.after hostOps1 (W2 m ρ c) (Proc.devRef .tc main_v12) = _
  dsimp only [hostOps1]
  after_results
  rw [W2_arg5]
  funext j
  obtain ⟨u, q, rfl⟩ : ∃ (u : Fin 1) (q : Fin 256), j = ix2 u q := ⟨j 0, j 1, eq_ix2 j⟩
  exact shapeCast_a_1a_apply _ _ u q
theorem V3_Wroot (c : Dev nD) : V3 m ρ c main_arg6 = (Net.argsK m c).W6 := W3_arg6 m ρ c

theorem W4_hI (c : Dev nD) : W4 m ρ c (Proc.devRef .tc main_v13) = Net.hIssue (Net.argsK m c) := by
  refine (W4_arr m ρ c 5).trans ((final1 (V3 m ρ) c).trans ?_)
  rw [V3_agg, V3_xd, V3_Wrel, V3_b, V3_Wroot]
  rfl
/-- Region 1 reads `xi` through an input window and leaves it as it was. -/
theorem W4_xi (c : Dev nD) : W4 m ρ c (Proc.devRef .tc main_v1) = Net.xi (Net.argsK m c) :=
  (W4_arr m ρ c 1).trans ((((dat1 (V3 m ρ) c).arrAt_in 1 rfl _).trans (A_eq1 (V3 m ρ) c 1)).trans (V3_xd m ρ c))

/-! ## Region 2: the first convolution on the user side -/

theorem V5_agg (c : Dev nD) : V5 m ρ c main_v23 = Net.aggIU128R (Net.xi (Net.argsK m c)) (Net.argsK m c).src (Net.argsK m c).dst := by
  show StableHlo.after hostOps2 (W4 m ρ c) (Proc.devRef .tc main_v23) = _
  dsimp only [hostOps2]
  after_results
  rw [W4_xi, W4_arg16, W4_arg17]
  exact congrFun (congrFun (congrFun Net.aggIU128_eq _) _) _
theorem V5_xd (c : Dev nD) : V5 m ρ c main_arg0 = (Net.argsK m c).xu := W5_arg0 m ρ c
theorem V5_Wrel (c : Dev nD) : V5 m ρ c main_arg7 = (Net.argsK m c).W7 := W5_arg7 m ρ c
theorem V5_b (c : Dev nD) : V5 m ρ c main_v24 = Spec.rowOf (Net.argsK m c).b8 := by
  show StableHlo.after hostOps2 (W4 m ρ c) (Proc.devRef .tc main_v24) = _
  dsimp only [hostOps2]
  after_results
  rw [W4_arg8]
  funext j
  obtain ⟨u, q, rfl⟩ : ∃ (u : Fin 1) (q : Fin 256), j = ix2 u q := ⟨j 0, j 1, eq_ix2 j⟩
  exact shapeCast_a_1a_apply _ _ u q
theorem V5_Wroot (c : Dev nD) : V5 m ρ c main_arg9 = (Net.argsK m c).W9 := W5_arg9 m ρ c

theorem W6_hU (c : Dev nD) : W6 m ρ c (Proc.devRef .tc main_v25) = Net.hUser (Net.argsK m c) := by
  refine (W6_arr m ρ c 5).trans ((final2 (V5 m ρ) c).trans ?_)
  rw [V5_agg, V5_xd, V5_Wrel, V5_b, V5_Wroot]
  rfl

/-! ## Region 3: the second convolution on the issue side -/

theorem V7_agg (c : Dev nD) : V7 m ρ c main_v35 = Net.aggUI256R (Net.hUser (Net.argsK m c)) (Net.argsK m c).src (Net.argsK m c).dst := by
  show StableHlo.after hostOps3 (W6 m ρ c) (Proc.devRef .tc main_v35) = _
  dsimp only [hostOps3]
  after_results
  rw [W6_hU, W6_arg16, W6_arg17]
  exact congrFun (congrFun (congrFun Net.aggUI256_eq _) _) _
theorem V7_xd (c : Dev nD) : V7 m ρ c main_v13 = Net.hIssue (Net.argsK m c) := by
  bh; br6; bh
  exact W4_hI m ρ c
theorem V7_Wrel (c : Dev nD) : V7 m ρ c main_arg10 = (Net.argsK m c).W10 := W7_arg10 m ρ c
theorem V7_b (c : Dev nD) : V7 m ρ c main_v36 = Spec.rowOf (Net.argsK m c).b11 := by
  show StableHlo.after hostOps3 (W6 m ρ c) (Proc.devRef .tc main_v36) = _
  dsimp only [hostOps3]
  after_results
  rw [W6_arg11]
  funext j
  obtain ⟨u, q, rfl⟩ : ∃ (u : Fin 1) (q : Fin 128), j = ix2 u q := ⟨j 0, j 1, eq_ix2 j⟩
  exact shapeCast_a_1a_apply _ _ u q
theorem V7_Wroot (c : Dev nD) : V7 m ρ c main_arg12 = (Net.argsK m c).W12 := W7_arg12 m ρ c

theorem W8_oI (c : Dev nD) : W8 m ρ c (Proc.devRef .tc main_v37) = Net.outIssue (Net.argsK m c) := by
  refine (W8_arr m ρ c 5).trans ((final3 (V7 m ρ) c).trans ?_)
  rw [V7_agg, V7_xd, V7_Wrel, V7_b, V7_Wroot]
  rfl
/-- Region 3 reads `hIssue` through an input window and leaves it as it was. -/
theorem W8_hI (c : Dev nD) : W8 m ρ c (Proc.devRef .tc main_v13) = Net.hIssue (Net.argsK m c) :=
  (W8_arr m ρ c 1).trans ((((dat3 (V7 m ρ) c).arrAt_in 1 rfl _).trans (A_eq3 (V7 m ρ) c 1)).trans (V7_xd m ρ c))

/-! ## Region 4: the second convolution on the user side -/

set_option maxHeartbeats 1000000 in
theorem V9_agg (c : Dev nD) : V9 m ρ c main_v47 = Net.aggIU256R (Net.hIssue (Net.argsK m c)) (Net.argsK m c).src (Net.argsK m c).dst := by
  show StableHlo.after hostOps4 (W8 m ρ c) (Proc.devRef .tc main_v47) = _
  dsimp only [hostOps4]
  after_results
  rw [W8_hI, W8_arg16, W8_arg17]
  exact congrFun (congrFun (congrFun Net.aggIU256_eq _) _) _
theorem V9_xd (c : Dev nD) : V9 m ρ c main_v25 = Net.hUser (Net.argsK m c) := by
  bh; br8; bh
  exact W6_hU m ρ c
theorem V9_Wrel (c : Dev nD) : V9 m ρ c main_arg13 = (Net.argsK m c).W13 := W9_arg13 m ρ c
theorem V9_b (c : Dev nD) : V9 m ρ c main_v48 = Spec.rowOf (Net.argsK m c).b14 := by
  show StableHlo.after hostOps4 (W8 m ρ c) (Proc.devRef .tc main_v48) = _
  dsimp only [hostOps4]
  after_results
  rw [W8_arg14]
  funext j
  obtain ⟨u, q, rfl⟩ : ∃ (u : Fin 1) (q : Fin 128), j = ix2 u q := ⟨j 0, j 1, eq_ix2 j⟩
  exact shapeCast_a_1a_apply _ _ u q
theorem V9_Wroot (c : Dev nD) : V9 m ρ c main_arg15 = (Net.argsK m c).W15 := W9_arg15 m ρ c

theorem W10_oU (c : Dev nD) : W10 m ρ c (Proc.devRef .tc main_v49) = Net.outUser (Net.argsK m c) := by
  refine (W10_arr m ρ c 5).trans ((final4 (V9 m ρ) c).trans ?_)
  rw [V9_agg, V9_xd, V9_Wrel, V9_b, V9_Wroot]
  rfl
/-- The first result is written by region 3 and touched by nothing after it. -/
theorem W10_oI (c : Dev nD) : W10 m ρ c (Proc.devRef .tc main_v37) = Net.outIssue (Net.argsK m c) := by
  br10; bh
  exact W8_oI m ρ c

/-! ## The run -/

/-- Every weakly fair execution of the kernel program ends with its two results at the network's two outputs of its
    arguments, the arguments unchanged. -/
theorem run_values : θ_run defs (onTc (τ := τ) (main (F := Ideal))) ⟨m, fun _ => 0, ρ⟩ (fun r => ∀ c : Dev nD,
      r.2.mem ((c.tc : Thread nD τ).loc main_v37) = Net.outIssue (Net.argsK m c)
      ∧ r.2.mem ((c.tc : Thread nD τ).loc main_v49) = Net.outUser (Net.argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v37 (by decide))).trans (W10_oI m ρ c),
      (h c _ (mem_uc main_v49 (by decide))).trans (W10_oU m ρ c),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c),
      (h c _ (mem_uc main_arg16 (by decide))).trans (W10_main_arg16 m ρ c),
      (h c _ (mem_uc main_arg17 (by decide))).trans (W10_main_arg17 m ρ c)⟩)
    (run_all m ρ)

end Cert.KernelIdeal.Hand

end
-- ==== Proof.RefSide.lean ====
import proofs.«155566_j32839319945244_1_alg».proof.Proof.Gen.ReferenceIdeal.Read
import proofs.«155566_j32839319945244_1_alg».proof.Proof.Model

/-! The reference program's two results as the network of `Cert.Net` over its arguments.

The reference's run states each result as its operations' composed term. Read one operation at a time: each
`x @ W.T + b` is a `dot_general` against the transposed weight plus the twice-broadcast bias, which at an index is
`∑ₖ x[r,k]·W[o,k] + b[o]`; each convolution adds two such products in the grouping `(· + b) + ·`; `relu` is the maximum with
the broadcast zero; and each aggregation is the gather-and-scatter chain, carried whole. -/

set_option maxRecDepth 16384

noncomputable section

namespace Cert.RefSide

open Cert.ReferenceIdeal Cert.ReferenceIdeal.Gen Cert.ReferenceIdeal.Read Idealize.ShloMosaic Idealize.ShloMosaic.ValueIdx

/-- Two indices of rank one or two agree when their coordinates do. -/
local macro "idx" : tactic => `(tactic| first
  | (funext a; match a with | ⟨0, _⟩ => rfl | ⟨1, _⟩ => rfl)
  | (funext a; match a with | ⟨0, _⟩ => rfl))

theorem rowOf_apply {O : Nat} (b : FVec Ideal ⟨1, ![O]⟩ .f32) (u : Fin 1) (o : Fin O) :
    Spec.rowOf b (ix2 u o) = b (ix1 o) := rfl

/-! ## The four aggregations are the chains of `Cert.Net` -/

section Aggregations
variable {F : FTy → Type} [FloatOps F]

theorem agg_v14 (x0 : (⟨S100000x128, .f32⟩ : BufTy).Contents (Elt F)) (x16 x17 : (⟨S600000, .i32⟩ : BufTy).Contents (Elt F)) :
    val_main_v14 (F := F) x0 x16 x17 = Net.aggUI128R x0 x16 x17 := rfl
theorem agg_v32 (x1 : (⟨S200000x128, .f32⟩ : BufTy).Contents (Elt F)) (x2 : (⟨S128x128, .f32⟩ : BufTy).Contents (Elt F)) (x3 : (⟨S128, .f32⟩ : BufTy).Contents (Elt F)) (x16 x17 : (⟨S600000, .i32⟩ : BufTy).Contents (Elt F)) :
    val_main_v32 (F := F) x1 x2 x3 x16 x17 = Net.aggIU128R (val_main_v4 (F := F) x1 x2 x3) x16 x17 := rfl
theorem agg_v52 (x0 : (⟨S100000x128, .f32⟩ : BufTy).Contents (Elt F)) (x1 : (⟨S200000x128, .f32⟩ : BufTy).Contents (Elt F)) (x2 : (⟨S128x128, .f32⟩ : BufTy).Contents (Elt F)) (x3 : (⟨S128, .f32⟩ : BufTy).Contents (Elt F)) (x7 : (⟨S256x128, .f32⟩ : BufTy).Contents (Elt F)) (x8 : (⟨S256, .f32⟩ : BufTy).Contents (Elt F)) (x9 : (⟨S256x128, .f32⟩ : BufTy).Contents (Elt F)) (x16 x17 : (⟨S600000, .i32⟩ : BufTy).Contents (Elt F)) :
    val_main_v52 (F := F) x0 x1 x2 x3 x7 x8 x9 x16 x17 = Net.aggUI256R (val_main_v42 (F := F) x0 x1 x2 x3 x7 x8 x9 x16 x17) x16 x17 := rfl
theorem agg_v70 (x0 : (⟨S100000x128, .f32⟩ : BufTy).Contents (Elt F)) (x1 : (⟨S200000x128, .f32⟩ : BufTy).Contents (Elt F)) (x2 : (⟨S128x128, .f32⟩ : BufTy).Contents (Elt F)) (x3 : (⟨S128, .f32⟩ : BufTy).Contents (Elt F)) (x4 : (⟨S256x128, .f32⟩ : BufTy).Contents (Elt F)) (x5 : (⟨S256, .f32⟩ : BufTy).Contents (Elt F)) (x6 : (⟨S256x128, .f32⟩ : BufTy).Contents (Elt F)) (x16 x17 : (⟨S600000, .i32⟩ : BufTy).Contents (Elt F)) :
    val_main_v70 (F := F) x0 x1 x2 x3 x4 x5 x6 x16 x17 = Net.aggIU256R (val_main_v41 (F := F) x0 x1 x2 x3 x4 x5 x6 x16 x17) x16 x17 := rfl

end Aggregations

/-! ## The five layers -/

/-- The issue features' affine layer. -/
theorem layer_xi (x1 : (⟨S200000x128, .f32⟩ : BufTy).Contents (Elt Ideal)) (x2 : (⟨S128x128, .f32⟩ : BufTy).Contents (Elt Ideal)) (x3 : (⟨S128, .f32⟩ : BufTy).Contents (Elt Ideal)) :
    val_main_v4 (F := Ideal) x1 x2 x3 = Spec.affine x1 x2 (Spec.rowOf x3) := by
  funext i
  obtain ⟨r, o, rfl⟩ : ∃ (r : Fin 200000) (o : Fin 128), i = ix2 r o := ⟨i 0, i 1, eq_ix2 i⟩
  rw [val_main_v4_apply, val_main_v1_apply, val_main_v3_apply, val_main_v2_apply, Spec.affine_apply, rowOf_apply]
  simp only [val_main_v0_apply]
  show _ + _ = _ + _
  refine congrArg₂ (· + ·) (Finset.sum_congr rfl fun k _ => congrArg₂ (· * ·) (congrArg x1 ?_) (congrArg x2 ?_)) (congrArg x3 ?_) <;> idx

/-- The first convolution on the issue side, clamped. -/
theorem layer_hI (x0 : (⟨S100000x128, .f32⟩ : BufTy).Contents (Elt Ideal)) (x1 : (⟨S200000x128, .f32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S256, .f32⟩ : BufTy).Contents (Elt Ideal)) (x6 : (⟨S256x128, .f32⟩ : BufTy).Contents (Elt Ideal)) (x16 x17 : (⟨S600000, .i32⟩ : BufTy).Contents (Elt Ideal)) :
    val_main_v41 (F := Ideal) x0 x1 x2 x3 x4 x5 x6 x16 x17 = Spec.convRelu (val_main_v14 (F := Ideal) x0 x16 x17) (val_main_v4 (F := Ideal) x1 x2 x3) x4 (Spec.rowOf x5) x6 := by
  funext i
  obtain ⟨r, o, rfl⟩ : ∃ (r : Fin 200000) (o : Fin 256), i = ix2 r o := ⟨i 0, i 1, eq_ix2 i⟩
  rw [val_main_v41_apply, val_main_v22_apply, val_main_v19_apply, val_main_v16_apply, val_main_v18_apply, val_main_v17_apply, val_main_v21_apply, val_main_call0_v0_apply, val_main_call0_cst_apply, Spec.convRelu_apply, rowOf_apply]
  simp only [val_main_v15_apply, val_main_v20_apply]
  show max ((_ + _) + _) _ = max ((_ + _) + _) _
  refine congrArg₂ max (congrArg₂ (· + ·) (congrArg₂ (· + ·)
      (Finset.sum_congr rfl fun k _ => congrArg₂ (· * ·) (congrArg (val_main_v14 (F := Ideal) x0 x16 x17) ?_) (congrArg x4 ?_)) (congrArg x5 ?_))
    (Finset.sum_congr rfl fun k _ => congrArg₂ (· * ·) (congrArg (val_main_v4 (F := Ideal) x1 x2 x3) ?_) (congrArg x6 ?_))) rfl <;> idx

/-- The first convolution on the user side, clamped. -/
theorem layer_hU (x0 : (⟨S100000x128, .f32⟩ : BufTy).Contents (Elt Ideal)) (x1 : (⟨S200000x128, .f32⟩ : BufTy).Contents (Elt Ideal)) (x2 : (⟨S128x128, .f32⟩ : BufTy).Contents (Elt Ideal)) (x3 : (⟨S128, .f32⟩ : BufTy).Contents (Elt Ideal)) (x7 : (⟨S256x128, .f32⟩ : BufTy).Contents (Elt Ideal)) (x8 : (⟨S256, .f32⟩ : BufTy).Contents (Elt Ideal)) (x9 : (⟨S256x128, .f32⟩ : BufTy).Contents (Elt Ideal)) (x16 x17 : (⟨S600000, .i32⟩ : BufTy).Contents (Elt Ideal)) :
    val_main_v42 (F := Ideal) x0 x1 x2 x3 x7 x8 x9 x16 x17 = Spec.convRelu (val_main_v32 (F := Ideal) x1 x2 x3 x16 x17) x0 x7 (Spec.rowOf x8) x9 := by
  funext i
  obtain ⟨r, o, rfl⟩ : ∃ (r : Fin 100000) (o : Fin 256), i = ix2 r o := ⟨i 0, i 1, eq_ix2 i⟩
  rw [val_main_v42_apply, val_main_v40_apply, val_main_v37_apply, val_main_v34_apply, val_main_v36_apply, val_main_v35_apply, val_main_v39_apply, val_main_call1_v0_apply, val_main_call1_cst_apply, Spec.convRelu_apply, rowOf_apply]
  simp only [val_main_v33_apply, val_main_v38_apply]
  show max ((_ + _) + _) _ = max ((_ + _) + _) _
  refine congrArg₂ max (congrArg₂ (· + ·) (congrArg₂ (· + ·)
      (Finset.sum_congr rfl fun k _ => congrArg₂ (· * ·) (congrArg (val_main_v32 (F := Ideal) x1 x2 x3 x16 x17) ?_) (congrArg x7 ?_)) (congrArg x8 ?_))
    (Finset.sum_congr rfl fun k _ => congrArg₂ (· * ·) (congrArg x0 ?_) (congrArg x9 ?_))) rfl <;> idx

/-- The second convolution on the issue side: the first result. -/
theorem layer_oI (x0 : (⟨S100000x128, .f32⟩ : BufTy).Contents (Elt Ideal)) (x1 : (⟨S200000x128, .f32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S256, .f32⟩ : BufTy).Contents (Elt Ideal)) (x6 x7 : (⟨S256x128, .f32⟩ : BufTy).Contents (Elt Ideal)) (x8 : (⟨S256, .f32⟩ : BufTy).Contents (Elt Ideal)) (x9 : (⟨S256x128, .f32⟩ : BufTy).Contents (Elt Ideal)) (x10 : (⟨S128x256, .f32⟩ : BufTy).Contents (Elt Ideal)) (x11 : (⟨S128, .f32⟩ : BufTy).Contents (Elt Ideal)) (x12 : (⟨S128x256, .f32⟩ : BufTy).Contents (Elt Ideal)) (x16 x17 : (⟨S600000, .i32⟩ : BufTy).Contents (Elt Ideal)) :
    val_main_v60 (F := Ideal) x0 x1 x2 x3 x4 x5 x6 x7 x8 x9 x10 x11 x12 x16 x17
      = Spec.conv (val_main_v52 (F := Ideal) x0 x1 x2 x3 x7 x8 x9 x16 x17) (val_main_v41 (F := Ideal) x0 x1 x2 x3 x4 x5 x6 x16 x17) x10 (Spec.rowOf x11) x12 := by
  funext i
  obtain ⟨r, o, rfl⟩ : ∃ (r : Fin 200000) (o : Fin 128), i = ix2 r o := ⟨i 0, i 1, eq_ix2 i⟩
  rw [val_main_v60_apply, val_main_v57_apply, val_main_v54_apply, val_main_v56_apply, val_main_v55_apply, val_main_v59_apply, Spec.conv_apply, rowOf_apply]
  simp only [val_main_v53_apply, val_main_v58_apply]
  show (_ + _) + _ = (_ + _) + _
  refine congrArg₂ (· + ·) (congrArg₂ (· + ·)
      (Finset.sum_congr rfl fun k _ => congrArg₂ (· * ·) (congrArg (val_main_v52 (F := Ideal) x0 x1 x2 x3 x7 x8 x9 x16 x17) ?_) (congrArg x10 ?_)) (congrArg x11 ?_))
    (Finset.sum_congr rfl fun k _ => congrArg₂ (· * ·) (congrArg (val_main_v41 (F := Ideal) x0 x1 x2 x3 x4 x5 x6 x16 x17) ?_) (congrArg x12 ?_)) <;> idx

/-- The second convolution on the user side: the second result. -/
theorem layer_oU (x0 : (⟨S100000x128, .f32⟩ : BufTy).Contents (Elt Ideal)) (x1 : (⟨S200000x128, .f32⟩ : BufTy).Contents (Elt Ideal)) (x2 : (⟨S128x128, .f32⟩ : BufTy).Contents (Elt Ideal)) (x3 : (⟨S128, .f32⟩ : BufTy).Contents (Elt Ideal)) (x4 : (⟨S256x128, .f32⟩ : BufTy).Contents (Elt Ideal)) (x5 : (⟨S256, .f32⟩ : BufTy).Contents (Elt Ideal)) (x6 x7 : (⟨S256x128, .f32⟩ : BufTy).Contents (Elt Ideal)) (x8 : (⟨S256, .f32⟩ : BufTy).Contents (Elt Ideal)) (x9 : (⟨S256x128, .f32⟩ : BufTy).Contents (Elt Ideal)) (x13 : (⟨S128x256, .f32⟩ : BufTy).Contents (Elt Ideal)) (x14 : (⟨S128, .f32⟩ : BufTy).Contents (Elt Ideal)) (x15 : (⟨S128x256, .f32⟩ : BufTy).Contents (Elt Ideal)) (x16 x17 : (⟨S600000, .i32⟩ : BufTy).Contents (Elt Ideal)) :
    val_main_v78 (F := Ideal) x0 x1 x2 x3 x4 x5 x6 x7 x8 x9 x13 x14 x15 x16 x17
      = Spec.conv (val_main_v70 (F := Ideal) x0 x1 x2 x3 x4 x5 x6 x16 x17) (val_main_v42 (F := Ideal) x0 x1 x2 x3 x7 x8 x9 x16 x17) x13 (Spec.rowOf x14) x15 := by
  funext i
  obtain ⟨r, o, rfl⟩ : ∃ (r : Fin 100000) (o : Fin 128), i = ix2 r o := ⟨i 0, i 1, eq_ix2 i⟩
  rw [val_main_v78_apply, val_main_v75_apply, val_main_v72_apply, val_main_v74_apply, val_main_v73_apply, val_main_v77_apply, Spec.conv_apply, rowOf_apply]
  simp only [val_main_v71_apply, val_main_v76_apply]
  show (_ + _) + _ = (_ + _) + _
  refine congrArg₂ (· + ·) (congrArg₂ (· + ·)
      (Finset.sum_congr rfl fun k _ => congrArg₂ (· * ·) (congrArg (val_main_v70 (F := Ideal) x0 x1 x2 x3 x4 x5 x6 x16 x17) ?_) (congrArg x13 ?_)) (congrArg x14 ?_))
    (Finset.sum_congr rfl fun k _ => congrArg₂ (· * ·) (congrArg (val_main_v42 (F := Ideal) x0 x1 x2 x3 x7 x8 x9 x16 x17) ?_) (congrArg x15 ?_)) <;> idx

/-! ## The two results -/

theorem out_issue (m : (ℓ : Loc nD τ sig) → Buf (Elt Ideal) ℓ) (c : Dev nD) :
    Cert.ReferenceIdeal.Value.res_main_v60 (F := Ideal) m c = Net.outIssue (Net.argsR m c) := by
  rw [val_main_v60_eq, layer_oI, agg_v52, layer_hU, agg_v32, layer_hI, agg_v14, layer_xi]
  rfl

theorem out_user (m : (ℓ : Loc nD τ sig) → Buf (Elt Ideal) ℓ) (c : Dev nD) :
    Cert.ReferenceIdeal.Value.res_main_v78 (F := Ideal) m c = Net.outUser (Net.argsR m c) := by
  rw [val_main_v78_eq, layer_oU, agg_v70, layer_hI, agg_v14, layer_hU, agg_v32, layer_xi]
  rfl

end Cert.RefSide

end
-- ==== Proof.lean ====
/- A heterogeneous GraphSAGE forward pass over two node types, users and issues, joined by 600000 edges: the kernel
   program against its plain reference, as extended reals.

   Both programs compute `xi = x_issue·W_mlpᵀ + b_mlp`; two first convolutions clamped at zero,
   `hIssue = max((agg(x_user)·W_relᵀ + b) + xi·W_rootᵀ, 0)` and `hUser = max((agg(xi)·W_relᵀ + b) + x_user·W_rootᵀ, 0)`;
   and two second convolutions of the same shape without the clamp over `hUser`, `hIssue`, which are the two results.
   Each `agg` gathers the source rows along the edges and adds them into the destination rows; both programs form it with
   the same host operations, so it is carried as one function and never opened.

   The kernel program runs the five layers as five grid regions over blocks of 2000 rows: a block's stored value is the
   layer's formula at its rows (the narrowings to bf16 are the identity on the extended reals, each in-kernel transpose
   turns `W` into `Wᵀ`, the product into a zero accumulator is the plain sum), the row blocks tile the result, and the
   buffers between regions are read back through the host stretches. The reference states each layer as a `dot_general`
   against the transposed weight plus a broadcast bias, the clamp as a maximum with a broadcast zero. Index by index
   the two are the same sums in the same grouping, so no law of the extended reals beyond that is used, and the
   precondition is not opened. The idealization rewrote nothing, so `preserves` is `True`. -/
import proofs.«155566_j32839319945244_1_alg».proof.Defs
import proofs.«155566_j32839319945244_1_alg».proof.Proof.Gen.Kernel
import proofs.«155566_j32839319945244_1_alg».proof.Proof.KernelFrameP
import proofs.«155566_j32839319945244_1_alg».proof.Proof.Gen.KernelIdeal
import proofs.«155566_j32839319945244_1_alg».proof.Proof.KernelIdealFrameP
import proofs.«155566_j32839319945244_1_alg».proof.Proof.Gen.ReferenceIdeal
import proofs.«155566_j32839319945244_1_alg».proof.Proof.Gen.ReferenceIdeal.Run
import proofs.«155566_j32839319945244_1_alg».proof.Proof.Gen.Pre_finite_inputs
import proofs.«155566_j32839319945244_1_alg».proof.Proof.KChain
import proofs.«155566_j32839319945244_1_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the network's two outputs of those arguments. -/
theorem algebraic : Cert.algebraic_KernelIdeal_ReferenceIdeal := by
  intro m ρ m' ρ' _ hagree
  have hargs : ∀ c, Cert.Net.argsR m' c = Cert.Net.argsK m c := fun c => by
    obtain ⟨h0, h1, h2, h3, h4, h5, h6, h7, h8, h9, h10, h11, h12, h13, h14, h15, h16, h17⟩ := hagree c
    unfold Cert.Net.argsR Cert.Net.argsK
    rw [h0, h1, h2, h3, h4, h5, h6, h7, h8, h9, h10, h11, h12, h13, h14, h15, h16, h17]
  refine ⟨fun c => Cert.Net.outIssue (Cert.Net.argsK m c), fun c => Cert.Net.outUser (Cert.Net.argsK m c),
    Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.RefSide.out_issue m' c).trans (congrArg Cert.Net.outIssue (hargs c))
  · exact (Cert.RefSide.out_user m' c).trans (congrArg Cert.Net.outUser (hargs c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
